-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_cst_6 : FVec F S_ .f32 := constant S_ .f32 0x00000000#32
  let main_v19 : FVec F S8192 .f32 := (fun x v => Host.reduceAdd x v reducesTo_S8192x8192_S8192_d1 h_S_) main_arg1 main_cst_6
  let main_cst_7 : FVec F S_ .f32 := constant S_ .f32 0x358637BD#32
  let main_v20 : FVec F S8192 .f32 := broadcastInDim S8192 ![] bcast_S_S8192 main_cst_7
  let main_v21 : FVec F S8192 .f32 := addf main_v19 main_v20
  let main_cst_8 : FVec F S_ .f32 := constant S_ .f32 0x00000000#32
  let main_v22 : FVec F S8192 .f32 := broadcastInDim S8192 ![] bcast_S_S8192 main_cst_8
  let main_v23 : IVec S8192 1 := cmpf .oge main_v21 main_v22
  let main_c_9 : IVec S_ 1 := constantI S_ 1 1#1
  let main_v24 : IVec S_ 1 := (fun x v => Host.reduce IntOp.andi x v reducesTo_S8192_S_d0 h_S_) main_v23 main_c_9
  let main_v25 : IVec S_ 1 := andi main_v18 main_v24
  main_v25

def fn {F : FTy → Type} [FloatOps F] (main_arg0 : FVec F S8192x128 .f32) (main_arg1 : FVec F S8192x8192 .f32) (main_arg2 : FVec F S128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S1x8192 : Shape := ⟨2, ![1, 8192]⟩
abbrev S1x128 : Shape := ⟨2, ![1, 128]⟩
abbrev S2048x128 : Shape := ⟨2, ![2048, 128]⟩
abbrev S1x2048 : Shape := ⟨2, ![1, 2048]⟩
abbrev S1024x128 : Shape := ⟨2, ![1024, 128]⟩

abbrev nBuf : Space → Nat
  | .hbm => 9
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S8192x1, .f32⟩
  | .hbm, ⟨5, _⟩ => ⟨S1x8192, .f32⟩
  | .hbm, ⟨6, _⟩ => ⟨S128x128, .f32⟩
  | .hbm, ⟨7, _⟩ => ⟨S1x128, .f32⟩
  | .hbm, ⟨8, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x2048, .f32⟩
  | .local _ .vmem, ⟨6, _⟩ => ⟨S1024x2048, .f32⟩
  | .local _ .vmem, ⟨7, _⟩ => ⟨S2048x128, .f32⟩
  | .local _ .vmem, ⟨8, _⟩ => ⟨S2048x128, .f32⟩
  | .local _ .vmem, ⟨9, _⟩ => ⟨S1024x1, .f32⟩
  | .local _ .vmem, ⟨10, _⟩ => ⟨S1024x1, .f32⟩
  | .local _ .vmem, ⟨11, _⟩ => ⟨S1x2048, .f32⟩
  | .local _ .vmem, ⟨12, _⟩ => ⟨S1x2048, .f32⟩
  | .local _ .vmem, ⟨13, _⟩ => ⟨S128x128, .f32⟩
  | .local _ .vmem, ⟨14, _⟩ => ⟨S1x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_12 : BitVec 32 := 0#32
  let v23 : BitVec 1 := Scalar.cmpi .ne v22 c0_i32_12
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  shapeCasts_S8192x1_S1x8192 : S8192x1.ShapeCasts S1x8192
  transposes_S128x128_S128x128_1_0 : S128x128.Transposes [1, 0] S128x128
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1024x1_S1024x2048 : S1024x1.Broadcasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x8192.size a
  hwx1_3 : ∀ i : grid1.Coords, EltTy.bits .f32 = 32 ∨ (Rect.block (s := S1x8192) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S8192x128.size a
  hwx1_6 : ∀ i : grid1.Coords, EltTy.bits .f32 = 32 ∨ (Rect.block (s := S8192x128) S1024x128.size (cc1_transform_6 i) (hinb1_6 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x8192, .f32⟩
  | .hbm, ⟨15, _⟩ => ⟨S8192x8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x128, .f32⟩
  | .hbm, ⟨20, _⟩ => ⟨S128x128, .f32⟩
  | .hbm, ⟨21, _⟩ => ⟨S8192x128, .f32⟩
  | .hbm, ⟨22, _⟩ => ⟨S1x128, .f32⟩
  | .hbm, ⟨23, _⟩ => ⟨S8192x128, .f32⟩
  | .hbm, ⟨24, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.KCases.lean ====
/-
  The two kernels' control: each body branches twice on the grid's second coordinate — "first column block of the row
  block" (reset the accumulator) and "last column block" (finish and store the result). Both grids are 8 x 4, point
  t = 4 i + j, so the conditions hold exactly at t % 4 = 0 and at t % 4 = 3; an output window is idle, and not
  written back, at the points where the second condition fails.
-/
import proofs.«167571_j15479062135162_1_alg».proof.Proof.Gen.Kernel.Launch
import proofs.«167571_j15479062135162_1_alg».proof.Proof.Gen.Kernel.Skeleton
import proofs.«167571_j15479062135162_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The row-sum kernel's two conditions -/

/-- "This is the first column block": the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "This is the last column block": the second grid coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The aggregation kernel's two conditions -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_in : ∀ (w : Fin 7), w.val < 6 → ∀ t : Fin cfg1.N, cfg1.idle w (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The staging memrefs at a point, as the pipeline passes them, and the scratch accumulators -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev scM0 : Memref sig .tc .vmem S1024x1 .f32 := Memref.whole cc0_scratch0

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
abbrev scM1 : Memref sig .tc .vmem S1024x128 .f32 := Memref.whole cc1_scratch0

end Cert.Kernel.Hand

end
-- ==== Proof.LibWholeStore.lean ====
import Idealize.ShloMosaic.Lib.Pipeline.FrameBody
import Idealize.ShloMosaic.Lib.Pipeline.Value

/-! A buffer whose LAST store is a whole-shape store at zero offsets reads back as that store's payload,
    whatever was stored before and whatever the buffer held. -/

namespace Idealize.ShloMosaic.View

variable {Val : EltTy → Type} [∀ e, Nonempty (Val e)] {sig : RefSig} {κ : Kind} {sp : Space} {S : Shape} {e : EltTy}

/-- Reading a view after a list of writes whose head is a whole-shape store at zero offsets gives the head's payload. -/
theorem read_writes_cons_unit_zero (v : View sig κ sp S e) (f : v.ty.Contents Val) {off : Fin S.rank → Nat}
    (h : off = fun _ => 0) (inb : ∀ a, off a + S.size a ≤ S.size a) (w : S.Idx → Val e) (L : List (Piece Val S e)) :
    v.read Val (v.writes Val f ((⟨Rect.unit off S.size inb, w⟩ : Piece Val S e) :: L)) = w := by
  rw [View.read_writes_eq_canon v f _ (fun y => ⟨_, List.mem_cons_self, View.mem_set_unit_zero h inb y⟩),
    View.canon_cons_unit_zero h]

end Idealize.ShloMosaic.View
-- ==== Proof.KRun0.lean ====
/-
  The row-sum kernel's body, run in each of its three control cases on whole staging memrefs. Every store of the body
  is a whole-buffer store, so what a buffer holds afterwards is the LAST payload stored into it, a function of what
  the body loaded: the accumulator ends at "what it held (zero after a reset) plus this block's row sums", and in the
  last case the result buffer ends at rsqrt of that plus the constant.
-/
import proofs.«167571_j15479062135162_1_alg».proof.Proof.KCases
import proofs.«167571_j15479062135162_1_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- First column block: the accumulator is reset, then takes this block's row sums. -/
theorem run0_A (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole)
    (hc0 : cond0_0 i) (hc1 : ¬cond0_1 i) (x0 : Vec F S1024x2048 .f32) (d3 : Vec F S1024x1 .f32) (E : Set ℕ) (K : PUnit → sProp 𝕄) :
    iprop(owns (c : Thread nD τ) arg2 fullShare x0 ∗ owns (c : Thread nD τ) arg3 fullShare d3 ∗ (∃ d, owns (c : Thread nD τ) arg4 fullShare d)
      ∗ (iprop(owns (c : Thread nD τ) arg2 fullShare x0 ∗ owns (c : Thread nD τ) arg3 fullShare d3 ∗ owns (c : Thread nD τ) arg4 fullShare (k0_pay2 (k0_pay1 (F := F)) x0)) -∗ K ⟨⟩))
    ⊢ wp frame (wpE (defs₀ (F := F)) Variants.none c none) E (cc0__rowsum_kernel i arg2 harg2 arg3 harg3 arg4 harg4) K := by
  simp only [cc0__rowsum_kernel_eq_skeleton]; unfold cc0__rowsum_kernel_skel
  unfold owns
  iintro ⟨⟨%f0, %hf0, H0⟩, ⟨%f1, %hf1, H1⟩, ⟨%ds0, %fs0, %hfs0, HS0⟩, Hk⟩
  obtain rfl := harg2.eq_unread hf0
  sl_exec (disch := first | exact hc0 | exact hc1)
  sl_step
  iapply Hk
  isplitl [H0]
  · iexists _; isplitr; · ipureintro; exact harg2.read_unread _
    iexact H0
  isplitl [H1]
  · iexists _; isplitr; · ipureintro; exact hf1
    iexact H1
  iexists _; isplitr
  swap; · iexact HS0
  ipureintro
  have hz : (![0, 0] : Fin S1024x1.rank → ℕ) = fun _ => 0 := by funext a; fin_cases a <;> rfl
  have hz2 : (![0, 0] : Fin S1024x2048.rank → ℕ) = fun _ => 0 := by funext a; fin_cases a <;> rfl
  sl_unfold_words
  simp only [View.read_writes_cons_unit_zero (S := S1024x1) _ _ hz, View.readCov_unit_zero (S := S1024x1) _ hz, View.readAt_eq_ld, harg4.read_unread, harg2.read_unread,
    View.ld_unit_zero (S := S1024x1) hz, View.ld_unit_zero (S := S1024x2048) hz2]

/-- A middle column block: the accumulator takes this block's row sums on top of what it held. -/
theorem run0_B (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole)
    (hc0 : ¬cond0_0 i) (hc1 : ¬cond0_1 i) (x0 : Vec F S1024x2048 .f32) (d3 : Vec F S1024x1 .f32) (xs : Vec F S1024x1 .f32) (E : Set ℕ) (K : PUnit → sProp 𝕄) :
    iprop(owns (c : Thread nD τ) arg2 fullShare x0 ∗ owns (c : Thread nD τ) arg3 fullShare d3 ∗ owns (c : Thread nD τ) arg4 fullShare xs
      ∗ (iprop(owns (c : Thread nD τ) arg2 fullShare x0 ∗ owns (c : Thread nD τ) arg3 fullShare d3 ∗ owns (c : Thread nD τ) arg4 fullShare (k0_pay2 xs x0)) -∗ K ⟨⟩))
    ⊢ wp frame (wpE (defs₀ (F := F)) Variants.none c none) E (cc0__rowsum_kernel i arg2 harg2 arg3 harg3 arg4 harg4) K := by
  simp only [cc0__rowsum_kernel_eq_skeleton]; unfold cc0__rowsum_kernel_skel
  unfold owns
  iintro ⟨⟨%f0, %hf0, H0⟩, ⟨%f1, %hf1, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact hf1
    iexact H1
  iexists _; isplitr
  swap; · iexact HS0
  ipureintro
  have hz : (![0, 0] : Fin S1024x1.rank → ℕ) = fun _ => 0 := by funext a; fin_cases a <;> rfl
  have hz2 : (![0, 0] : Fin S1024x2048.rank → ℕ) = fun _ => 0 := by funext a; fin_cases a <;> rfl
  sl_unfold_words
  simp only [View.read_writes_cons_unit_zero (S := S1024x1) _ _ hz, View.readCov_unit_zero (S := S1024x1) _ hz, View.readAt_eq_ld, harg4.read_unread, harg2.read_unread,
    View.ld_unit_zero (S := S1024x1) hz, View.ld_unit_zero (S := S1024x2048) hz2]

/-- Last column block: the accumulator takes this block's row sums, and the result buffer is stored whole from it. -/
theorem run0_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole)
    (hc0 : ¬cond0_0 i) (hc1 : cond0_1 i) (x0 : Vec F S1024x2048 .f32) (xs : Vec F S1024x1 .f32) (E : Set ℕ) (K : PUnit → sProp 𝕄) :
    iprop(owns (c : Thread nD τ) arg2 fullShare x0 ∗ (∃ d, owns (c : Thread nD τ) arg3 fullShare d) ∗ owns (c : Thread nD τ) arg4 fullShare xs
      ∗ (iprop(owns (c : Thread nD τ) arg2 fullShare x0 ∗ owns (c : Thread nD τ) arg3 fullShare (k0_pay3 (k0_pay2 xs x0)) ∗ owns (c : Thread nD τ) arg4 fullShare (k0_pay2 xs x0)) -∗ K ⟨⟩))
    ⊢ wp frame (wpE (defs₀ (F := F)) Variants.none c none) E (cc0__rowsum_kernel i arg2 harg2 arg3 harg3 arg4 harg4) K := by
  simp only [cc0__rowsum_kernel_eq_skeleton]; unfold cc0__rowsum_kernel_skel
  unfold owns
  iintro ⟨⟨%f0, %hf0, H0⟩, ⟨%d1, %f1, %hf1, H1⟩, ⟨%fs0, %hfs0, HS0⟩, Hk⟩
  obtain rfl := harg2.eq_unread hf0; obtain rfl := harg4.eq_unread hfs0
  sl_exec (disch := first | exact hc0 | exact hc1)
  sl_step
  iapply Hk
  have hz : (![0, 0] : Fin S1024x1.rank → ℕ) = fun _ => 0 := by funext a; fin_cases a <;> rfl
  have hz2 : (![0, 0] : Fin S1024x2048.rank → ℕ) = fun _ => 0 := by funext a; fin_cases a <;> rfl
  isplitl [H0]
  · iexists _; isplitr; · ipureintro; exact harg2.read_unread _
    iexact H0
  isplitl [H1]
  · iexists _; isplitr
    swap; · iexact H1
    ipureintro
    sl_unfold_words
    simp only [View.read_writes_cons_unit_zero (S := S1024x1) _ _ hz, View.readCov_unit_zero (S := S1024x1) _ hz, View.readAt_eq_ld, harg4.read_unread, harg2.read_unread,
      View.ld_unit_zero (S := S1024x1) hz, View.ld_unit_zero (S := S1024x2048) hz2]
  iexists _; isplitr
  swap; · iexact HS0
  ipureintro
  sl_unfold_words
  simp only [View.read_writes_cons_unit_zero (S := S1024x1) _ _ hz, View.readCov_unit_zero (S := S1024x1) _ hz, View.readAt_eq_ld, harg4.read_unread, harg2.read_unread,
    View.ld_unit_zero (S := S1024x1) hz, View.ld_unit_zero (S := S1024x2048) hz2]

end Cert.Kernel.Hand

end
-- ==== Proof.KAcc.lean ====
/-
  What the two kernels' accumulators and result buffers hold after each grid point, as pure functions of the arrays the
  region finds. Point t = 4 i + j handles row block i and column block j. The accumulator after point t is, by recursion
  on t: at j = 0 the body's update of a zeroed accumulator with this point's blocks, otherwise its update of what the
  point before left. The result's staging buffer is written only at j = 3, from the accumulator there.
-/
import proofs.«167571_j15479062135162_1_alg».proof.Proof.KCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The row-sum kernel -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator (1024 partial row sums) after point `n`. -/
def sAt0 (c : Dev nD) : (n : ℕ) → n < cfg0.N → Vec F S1024x1 .f32
  | 0, hn => k0_pay2 (k0_pay1 (F := F)) (iblk0 V c 0 ⟨0, hn⟩)
  | n + 1, hn =>
    if (n + 1) % 4 = 0 then k0_pay2 (k0_pay1 (F := F)) (iblk0 V c 0 ⟨n + 1, hn⟩)
    else k0_pay2 (sAt0 c n (Nat.lt_of_succ_lt hn)) (iblk0 V c 0 ⟨n + 1, hn⟩)

/-- At the first column block of a row block the accumulator restarts from zero. -/
theorem sAt0_first (c : Dev nD) (t : Fin cfg0.N) (h : t.val % 4 = 0) :
    sAt0 V c t.val t.isLt = k0_pay2 (k0_pay1 (F := F)) (iblk0 V c 0 t) := by
  obtain ⟨n, hn⟩ := t
  cases n with
  | zero => rfl
  | succ n => exact if_pos h

/-- At any other column block it continues from what the point before left. -/
theorem sAt0_next (c : Dev nD) (t : Fin cfg0.N) (h : ¬t.val % 4 = 0) :
    sAt0 V c t.val t.isLt = k0_pay2 (sAt0 V c (t.val - 1) (Nat.lt_of_le_of_lt (Nat.sub_le _ _) t.isLt)) (iblk0 V c 0 t) := by
  obtain ⟨n, hn⟩ := t
  cases n with
  | zero => exact absurd (Nat.zero_mod _) h
  | succ n => exact if_neg h

/-- The result's staging buffer after point `t` (stored at the last column block only; elsewhere this is not consulted). -/
def oAt0 (c : Dev nD) (t : Fin cfg0.N) : Vec F S1024x1 .f32 := k0_pay3 (sAt0 V c t.val t.isLt)

/-! ## The aggregation kernel -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the accumulator `acc`: windows 0 (adjacency block), 2 (row scale), 3 (column scale), 1 (feature block). -/
def upd1 (c : Dev nD) (t : Fin cfg1.N) (acc : Vec F S1024x128 .f32) : Vec F S1024x128 .f32 :=
  k1_pay2 (iblk1 V c 0 t) (iblk1 V c 2 t) (iblk1 V c 3 t) (iblk1 V c 1 t) acc

/-- The accumulator (a 1024 x 128 partial product) after point `n`. -/
def sAt1 (c : Dev nD) : (n : ℕ) → n < cfg1.N → Vec F S1024x128 .f32
  | 0, hn => upd1 V c ⟨0, hn⟩ (k1_pay1 (F := F))
  | n + 1, hn =>
    if (n + 1) % 4 = 0 then upd1 V c ⟨n + 1, hn⟩ (k1_pay1 (F := F))
    else upd1 V c ⟨n + 1, hn⟩ (sAt1 c n (Nat.lt_of_succ_lt hn))

theorem sAt1_first (c : Dev nD) (t : Fin cfg1.N) (h : t.val % 4 = 0) :
    sAt1 V c t.val t.isLt = upd1 V c t (k1_pay1 (F := F)) := by
  obtain ⟨n, hn⟩ := t
  cases n with
  | zero => rfl
  | succ n => exact if_pos h

theorem sAt1_next (c : Dev nD) (t : Fin cfg1.N) (h : ¬t.val % 4 = 0) :
    sAt1 V c t.val t.isLt = upd1 V c t (sAt1 V c (t.val - 1) (Nat.lt_of_le_of_lt (Nat.sub_le _ _) t.isLt)) := by
  obtain ⟨n, hn⟩ := t
  cases n with
  | zero => exact absurd (Nat.zero_mod _) h
  | succ n => exact if_neg h

/-- The result's staging buffer after point `t` (stored at the last column block only): the accumulator times the
    transposed-weights block (window 4) plus the bias row (window 5). -/
def oAt1 (c : Dev nD) (t : Fin cfg1.N) : Vec F S1024x128 .f32 :=
  k1_pay3 (sAt1 V c t.val t.isLt) (iblk1 V c 4 t) (iblk1 V c 5 t)

end Cert.Kernel.Hand

end
-- ==== Proof.KDat0.lean ====
/-
  The row-sum region's proof data and its body obligation. Between two points the region's invariant holds the carried
  accumulator at exactly what the point before left in it (before the first point: at anything, like every other scoped
  buffer the pipeline does not stage), the core's other scoped buffers at anything, and the generator register at some
  state. At each point the body is one of three cases by t % 4; the input's staging buffer holds its block whether or not
  it was fetched there; the result's staging buffer is idle (handed back as found, not written back) except at the last
  column block, where it is stored whole from the accumulator.
-/
import proofs.«167571_j15479062135162_1_alg».proof.Proof.KRun0
import proofs.«167571_j15479062135162_1_alg».proof.Proof.KAcc

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The core's scoped buffers other than the row-sum accumulator that the row-sum pipeline does not stage, each at anything. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The class invariant with the accumulator pulled out as an owned memref. -/
theorem PhiA0_eq (c : Dev nD) :
    (Pipeline.ΦA spec0 c : sProp 𝕄)
      = iprop(((∃ d, owns (c : Thread nD τ) scM0 fullShare d) ∗ Rest0 (F := F) c) ∗ (∃ r, prngReg c r)) := by
  unfold Pipeline.ΦA Rest0; rw [scopedRest0_eq]; simp only [scM0, owns_whole]; try rfl

/-- The invariant before position `n`: before the first point the class's; afterwards the accumulator at what point
    `n - 1` left. -/
def PhiS0 (c : Dev nD) : (n : ℕ) → n ≤ cfg0.N → sProp 𝕄
  | 0, _ => Pipeline.ΦA spec0 c
  | n + 1, hn => iprop((owns (c : Thread nD τ) scM0 fullShare (sAt0 V c n hn) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (sAt0 V c n hn) ∗ Rest0 (F := F) c) ∗ (∃ r, prngReg c r)) := rfl

theorem PhiS0_pos (c : Dev nD) (n : ℕ) (h : n ≤ cfg0.N) (hz : n ≠ 0) :
    PhiS0 V c n h = iprop((owns (c : Thread nD τ) scM0 fullShare (sAt0 V c (n - 1) (by omega)) ∗ Rest0 (F := F) c) ∗ (∃ r, prngReg c r)) := by
  cases n with
  | zero => exact absurd rfl hz
  | succ n => rfl

/-- The row-sum pipeline's proof data on core `c`, from the contents `V` the region finds. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => oAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = oAt0 V c t := by dsimp only [dat0]

/-- The adjacency window's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 1600000 in
/-- The body at any point, by its case. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  by_cases h1 : t.val % 4 = 3
  · have h0 : ¬t.val % 4 = 0 := by omega
    have hz : t.val ≠ 0 := by omega
    rw [show (dat0 V c).leavesExact 1 t = owns (c : Thread nD τ) (ms0_1 t) fullShare ((dat0 V c).after 1 t) from by
      unfold Dat.leavesExact; rw [liveAt0_1 t ((hcond0_1 t).mpr h1)], after0_1]
    unfold oAt0
    rw [sAt0_next V c t h0, Phi0_castSucc V c t, PhiS0_pos V c _ _ hz]
    iintro ⟨⟨⟨HS0, HR⟩, Hg⟩, Ho, ⟨%d0, H0⟩, ⟨%d1, H1⟩⟩
    iapply (run0_C c (grid0.coords t) _ _ _ _ _ _ (fun h => h0 ((hcond0_0 t).mp h)) ((hcond0_1 t).mpr h1) (iblk0 V c 0 t) _ Set.univ _)
    isplitl [H0]; · iexact H0
    isplitl [H1]; · iexists _; iexact H1
    isplitl [HS0]; · iexact HS0
    iintro ⟨H0, H1, HS0⟩
    isplitl [HS0 HR Hg]
    · isplitl [HS0 HR]
      · isplitl [HS0]; · iexact HS0
        iexact HR
      iexact Hg
    isplitl [Ho]; · iexact Ho
    isplitl [H0]; · iexact H0
    iexact H1
  · rw [Dat.leavesExact_idle (dat0 V c) 1 t (idleAt0_1 t (fun h => h1 ((hcond0_1 t).mp h))) (noFlush0_1 t (fun h => h1 ((hcond0_1 t).mp h)))]
    by_cases h0 : t.val % 4 = 0
    · rw [sAt0_first V c t h0]
      by_cases hz : t.val = 0
      · rw [Phi0_castSucc V c t, PhiS0_zero V c _ _ hz, PhiA0_eq]
        iintro ⟨⟨⟨HS0, HR⟩, Hg⟩, Ho, ⟨%d0, H0⟩, ⟨%d1, H1⟩⟩
        iapply (run0_A c (grid0.coords t) _ _ _ _ _ _ ((hcond0_0 t).mpr h0) (fun h => h1 ((hcond0_1 t).mp h)) (iblk0 V c 0 t) _ Set.univ _)
        isplitl [H0]; · iexact H0
        isplitl [H1]; · iexact H1
        isplitl [HS0]; · iexact HS0
        iintro ⟨H0, H1, HS0⟩
        isplitl [HS0 HR Hg]
        · isplitl [HS0 HR]
          · isplitl [HS0]; · iexact HS0
            iexact HR
          iexact Hg
        isplitl [Ho]; · iexact Ho
        isplitl [H0]; · iexact H0
        iexists _; iexact H1
      · rw [Phi0_castSucc V c t, PhiS0_pos V c _ _ hz]
        iintro ⟨⟨⟨HS0, HR⟩, Hg⟩, Ho, ⟨%d0, H0⟩, ⟨%d1, H1⟩⟩
        iapply (run0_A c (grid0.coords t) _ _ _ _ _ _ ((hcond0_0 t).mpr h0) (fun h => h1 ((hcond0_1 t).mp h)) (iblk0 V c 0 t) _ Set.univ _)
        isplitl [H0]; · iexact H0
        isplitl [H1]; · iexact H1
        isplitl [HS0]; · iexists _; iexact HS0
        iintro ⟨H0, H1, HS0⟩
        isplitl [HS0 HR Hg]
        · isplitl [HS0 HR]
          · isplitl [HS0]; · iexact HS0
            iexact HR
          iexact Hg
        isplitl [Ho]; · iexact Ho
        isplitl [H0]; · iexact H0
        iexists _; iexact H1
    · have hz : t.val ≠ 0 := by omega
      rw [sAt0_next V c t h0, Phi0_castSucc V c t, PhiS0_pos V c _ _ hz]
      iintro ⟨⟨⟨HS0, HR⟩, Hg⟩, Ho, ⟨%d0, H0⟩, ⟨%d1, H1⟩⟩
      iapply (run0_B c (grid0.coords t) _ _ _ _ _ _ (fun h => h0 ((hcond0_0 t).mp h)) (fun h => h1 ((hcond0_1 t).mp h)) (iblk0 V c 0 t) _ _ Set.univ _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region's entry hands over is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have hN : cfg0.N = 32 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS0, HR⟩, Hg⟩
  isplitl [HS0 HR]
  · isplitl [HS0]; · iexists _; iexact HS0
    iexact HR
  iexact Hg

end Cert.Kernel.Hand

end
-- ==== Proof.KRun1.lean ====
/-
  The aggregation kernel's body, run in each of its three control cases on whole staging memrefs. Every store is a
  whole-buffer store, so a buffer ends at the last payload stored into it: the accumulator at "what it held (zero after a
  reset) plus the product of this block of the scaled adjacency with this block of the features", and in the last case the
  result buffer at that accumulator times the transposed weights plus the bias row.
-/
import proofs.«167571_j15479062135162_1_alg».proof.Proof.KCases
import proofs.«167571_j15479062135162_1_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- First column block: the accumulator is reset, then takes this block's product. -/
theorem run1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole)
    (hc0 : cond1_0 i) (hc1 : ¬cond1_1 i) (a : Vec F S1024x2048 .f32) (x : Vec F S2048x128 .f32) (dr : Vec F S1024x1 .f32) (dc : Vec F S1x2048 .f32) (w : Vec F S128x128 .f32) (b : Vec F S1x128 .f32) (d8 : Vec F S1024x128 .f32) (E : Set ℕ) (K : PUnit → sProp 𝕄) :
    iprop(owns (c : Thread nD τ) arg2 fullShare a ∗ owns (c : Thread nD τ) arg3 fullShare x ∗ owns (c : Thread nD τ) arg4 fullShare dr ∗ owns (c : Thread nD τ) arg5 fullShare dc ∗ owns (c : Thread nD τ) arg6 fullShare w ∗ owns (c : Thread nD τ) arg7 fullShare b ∗ owns (c : Thread nD τ) arg8 fullShare d8 ∗ (∃ d, owns (c : Thread nD τ) arg9 fullShare d)
      ∗ (iprop(owns (c : Thread nD τ) arg2 fullShare a ∗ owns (c : Thread nD τ) arg3 fullShare x ∗ owns (c : Thread nD τ) arg4 fullShare dr ∗ owns (c : Thread nD τ) arg5 fullShare dc ∗ owns (c : Thread nD τ) arg6 fullShare w ∗ owns (c : Thread nD τ) arg7 fullShare b ∗ owns (c : Thread nD τ) arg8 fullShare d8 ∗ owns (c : Thread nD τ) arg9 fullShare (k1_pay2 a dr dc x (k1_pay1 (F := F)))) -∗ K ⟨⟩))
    ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | exact hc0 | exact hc1)
  sl_step
  iapply Hk
  have hz_S1024x2048 : (![0, 0] : Fin S1024x2048.rank → ℕ) = fun _ => 0 := by funext a; fin_cases a <;> rfl
  have hz_S2048x128 : (![0, 0] : Fin S2048x128.rank → ℕ) = fun _ => 0 := by funext a; fin_cases a <;> rfl
  have hz_S1024x1 : (![0, 0] : Fin S1024x1.rank → ℕ) = fun _ => 0 := by funext a; fin_cases a <;> rfl
  have hz_S1x2048 : (![0, 0] : Fin S1x2048.rank → ℕ) = fun _ => 0 := by funext a; fin_cases a <;> rfl
  have hz_S128x128 : (![0, 0] : Fin S128x128.rank → ℕ) = fun _ => 0 := by funext a; fin_cases a <;> rfl
  have hz_S1x128 : (![0, 0] : Fin S1x128.rank → ℕ) = fun _ => 0 := by funext a; fin_cases a <;> rfl
  have hz_S1024x128 : (![0, 0] : Fin S1024x128.rank → ℕ) = fun _ => 0 := by funext a; fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact hf8
    iexact H8
  iexists _; isplitr
  swap; · iexact H9
  ipureintro
  sl_unfold_words
  simp only [View.read_writes_cons_unit_zero (S := S1024x128) _ _ hz_S1024x128, View.readCov_unit_zero (S := S1024x128) _ hz_S1024x128, View.readAt_eq_ld,
    harg2.read_unread, harg3.read_unread, harg4.read_unread, harg5.read_unread, harg6.read_unread, harg7.read_unread, harg9.read_unread,
    View.ld_unit_zero (S := S1024x2048) hz_S1024x2048, View.ld_unit_zero (S := S2048x128) hz_S2048x128, View.ld_unit_zero (S := S1024x1) hz_S1024x1, View.ld_unit_zero (S := S1x2048) hz_S1x2048, View.ld_unit_zero (S := S128x128) hz_S128x128, View.ld_unit_zero (S := S1x128) hz_S1x128, View.ld_unit_zero (S := S1024x128) hz_S1024x128]

/-- A middle column block: the accumulator takes this block's product on top of what it held. -/
theorem run1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole)
    (hc0 : ¬cond1_0 i) (hc1 : ¬cond1_1 i) (a : Vec F S1024x2048 .f32) (x : Vec F S2048x128 .f32) (dr : Vec F S1024x1 .f32) (dc : Vec F S1x2048 .f32) (w : Vec F S128x128 .f32) (b : Vec F S1x128 .f32) (d8 : Vec F S1024x128 .f32) (xs : Vec F S1024x128 .f32) (E : Set ℕ) (K : PUnit → sProp 𝕄) :
    iprop(owns (c : Thread nD τ) arg2 fullShare a ∗ owns (c : Thread nD τ) arg3 fullShare x ∗ owns (c : Thread nD τ) arg4 fullShare dr ∗ owns (c : Thread nD τ) arg5 fullShare dc ∗ owns (c : Thread nD τ) arg6 fullShare w ∗ owns (c : Thread nD τ) arg7 fullShare b ∗ owns (c : Thread nD τ) arg8 fullShare d8 ∗ owns (c : Thread nD τ) arg9 fullShare xs
      ∗ (iprop(owns (c : Thread nD τ) arg2 fullShare a ∗ owns (c : Thread nD τ) arg3 fullShare x ∗ owns (c : Thread nD τ) arg4 fullShare dr ∗ owns (c : Thread nD τ) arg5 fullShare dc ∗ owns (c : Thread nD τ) arg6 fullShare w ∗ owns (c : Thread nD τ) arg7 fullShare b ∗ owns (c : Thread nD τ) arg8 fullShare d8 ∗ owns (c : Thread nD τ) arg9 fullShare (k1_pay2 a dr dc x xs)) -∗ K ⟨⟩))
    ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9
  sl_exec (disch := first | exact hc0 | exact hc1)
  sl_step
  iapply Hk
  have hz_S1024x2048 : (![0, 0] : Fin S1024x2048.rank → ℕ) = fun _ => 0 := by funext a; fin_cases a <;> rfl
  have hz_S2048x128 : (![0, 0] : Fin S2048x128.rank → ℕ) = fun _ => 0 := by funext a; fin_cases a <;> rfl
  have hz_S1024x1 : (![0, 0] : Fin S1024x1.rank → ℕ) = fun _ => 0 := by funext a; fin_cases a <;> rfl
  have hz_S1x2048 : (![0, 0] : Fin S1x2048.rank → ℕ) = fun _ => 0 := by funext a; fin_cases a <;> rfl
  have hz_S128x128 : (![0, 0] : Fin S128x128.rank → ℕ) = fun _ => 0 := by funext a; fin_cases a <;> rfl
  have hz_S1x128 : (![0, 0] : Fin S1x128.rank → ℕ) = fun _ => 0 := by funext a; fin_cases a <;> rfl
  have hz_S1024x128 : (![0, 0] : Fin S1024x128.rank → ℕ) = fun _ => 0 := by funext a; fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact hf8
    iexact H8
  iexists _; isplitr
  swap; · iexact H9
  ipureintro
  sl_unfold_words
  simp only [View.read_writes_cons_unit_zero (S := S1024x128) _ _ hz_S1024x128, View.readCov_unit_zero (S := S1024x128) _ hz_S1024x128, View.readAt_eq_ld,
    harg2.read_unread, harg3.read_unread, harg4.read_unread, harg5.read_unread, harg6.read_unread, harg7.read_unread, harg9.read_unread,
    View.ld_unit_zero (S := S1024x2048) hz_S1024x2048, View.ld_unit_zero (S := S2048x128) hz_S2048x128, View.ld_unit_zero (S := S1024x1) hz_S1024x1, View.ld_unit_zero (S := S1x2048) hz_S1x2048, View.ld_unit_zero (S := S128x128) hz_S128x128, View.ld_unit_zero (S := S1x128) hz_S1x128, View.ld_unit_zero (S := S1024x128) hz_S1024x128]

/-- Last column block: the accumulator takes this block's product, and the result buffer is stored whole from it. -/
theorem run1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole)
    (hc0 : ¬cond1_0 i) (hc1 : cond1_1 i) (a : Vec F S1024x2048 .f32) (x : Vec F S2048x128 .f32) (dr : Vec F S1024x1 .f32) (dc : Vec F S1x2048 .f32) (w : Vec F S128x128 .f32) (b : Vec F S1x128 .f32) (xs : Vec F S1024x128 .f32) (E : Set ℕ) (K : PUnit → sProp 𝕄) :
    iprop(owns (c : Thread nD τ) arg2 fullShare a ∗ owns (c : Thread nD τ) arg3 fullShare x ∗ owns (c : Thread nD τ) arg4 fullShare dr ∗ owns (c : Thread nD τ) arg5 fullShare dc ∗ owns (c : Thread nD τ) arg6 fullShare w ∗ owns (c : Thread nD τ) arg7 fullShare b ∗ (∃ d, owns (c : Thread nD τ) arg8 fullShare d) ∗ owns (c : Thread nD τ) arg9 fullShare xs
      ∗ (iprop(owns (c : Thread nD τ) arg2 fullShare a ∗ owns (c : Thread nD τ) arg3 fullShare x ∗ owns (c : Thread nD τ) arg4 fullShare dr ∗ owns (c : Thread nD τ) arg5 fullShare dc ∗ owns (c : Thread nD τ) arg6 fullShare w ∗ owns (c : Thread nD τ) arg7 fullShare b ∗ owns (c : Thread nD τ) arg8 fullShare (k1_pay3 (k1_pay2 a dr dc x xs) w b) ∗ owns (c : Thread nD τ) arg9 fullShare (k1_pay2 a dr dc x xs)) -∗ K ⟨⟩))
    ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, ⟨%f9, %hf9, H9⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9
  sl_exec (disch := first | exact hc0 | exact hc1)
  sl_step
  iapply Hk
  have hz_S1024x2048 : (![0, 0] : Fin S1024x2048.rank → ℕ) = fun _ => 0 := by funext a; fin_cases a <;> rfl
  have hz_S2048x128 : (![0, 0] : Fin S2048x128.rank → ℕ) = fun _ => 0 := by funext a; fin_cases a <;> rfl
  have hz_S1024x1 : (![0, 0] : Fin S1024x1.rank → ℕ) = fun _ => 0 := by funext a; fin_cases a <;> rfl
  have hz_S1x2048 : (![0, 0] : Fin S1x2048.rank → ℕ) = fun _ => 0 := by funext a; fin_cases a <;> rfl
  have hz_S128x128 : (![0, 0] : Fin S128x128.rank → ℕ) = fun _ => 0 := by funext a; fin_cases a <;> rfl
  have hz_S1x128 : (![0, 0] : Fin S1x128.rank → ℕ) = fun _ => 0 := by funext a; fin_cases a <;> rfl
  have hz_S1024x128 : (![0, 0] : Fin S1024x128.rank → ℕ) = fun _ => 0 := by funext a; fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_words
    simp only [View.read_writes_cons_unit_zero (S := S1024x128) _ _ hz_S1024x128, View.readCov_unit_zero (S := S1024x128) _ hz_S1024x128, View.readAt_eq_ld,
      harg2.read_unread, harg3.read_unread, harg4.read_unread, harg5.read_unread, harg6.read_unread, harg7.read_unread, harg9.read_unread,
      View.ld_unit_zero (S := S1024x2048) hz_S1024x2048, View.ld_unit_zero (S := S2048x128) hz_S2048x128, View.ld_unit_zero (S := S1024x1) hz_S1024x1, View.ld_unit_zero (S := S1x2048) hz_S1x2048, View.ld_unit_zero (S := S128x128) hz_S128x128, View.ld_unit_zero (S := S1x128) hz_S1x128, View.ld_unit_zero (S := S1024x128) hz_S1024x128]
  iexists _; isplitr
  swap; · iexact H9
  ipureintro
  sl_unfold_words
  simp only [View.read_writes_cons_unit_zero (S := S1024x128) _ _ hz_S1024x128, View.readCov_unit_zero (S := S1024x128) _ hz_S1024x128, View.readAt_eq_ld,
    harg2.read_unread, harg3.read_unread, harg4.read_unread, harg5.read_unread, harg6.read_unread, harg7.read_unread, harg9.read_unread,
    View.ld_unit_zero (S := S1024x2048) hz_S1024x2048, View.ld_unit_zero (S := S2048x128) hz_S2048x128, View.ld_unit_zero (S := S1024x1) hz_S1024x1, View.ld_unit_zero (S := S1x2048) hz_S1x2048, View.ld_unit_zero (S := S128x128) hz_S128x128, View.ld_unit_zero (S := S1x128) hz_S1x128, View.ld_unit_zero (S := S1024x128) hz_S1024x128]

end Cert.Kernel.Hand

end
-- ==== Proof.KDat1Def.lean ====
/-
  The aggregation region's proof data. Between two points the region's invariant holds the carried accumulator at exactly
  what the point before left in it (before the first point: at anything), the core's other scoped buffers the pipeline
  does not stage at anything, and the generator register at some state. After the body at point t every input window's
  staging buffer holds its block, and the result's holds the accumulator times the weights plus the bias (consulted only
  at the last column block, the one point of a row block where it is stored and written back).
-/
import proofs.«167571_j15479062135162_1_alg».proof.Proof.KRun1
import proofs.«167571_j15479062135162_1_alg».proof.Proof.KAcc

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The class invariant with the accumulator (the last of the six scoped buffers the pipeline does not stage) as an owned memref. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

/-- The invariant before position `n`: before the first point the class's; afterwards the accumulator at what point
    `n - 1` left. -/
def PhiS1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1 fullShare (sAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1 fullShare (sAt1 V c n hn)) ∗ (∃ r, prngReg c r)) := rfl

theorem PhiS1_pos (c : Dev nD) (n : ℕ) (h : n ≤ cfg1.N) (hz : n ≠ 0) :
    PhiS1 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1 fullShare (sAt1 V c (n - 1) (by omega))) ∗ (∃ r, prngReg c r)) := by
  cases n with
  | zero => exact absurd rfl hz
  | succ n => rfl

/-- The aggregation pipeline's proof data on core `c`, from the contents `V` the region finds. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => oAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = oAt1 V c t := by dsimp only [dat1]

/-- What the region's entry hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hN : cfg1.N = 32 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HA, HB, HC, HD, HE, HS⟩, Hg⟩
  isplitr [Hg]
  · isplitl [HA]; · iexact HA
    isplitl [HB]; · iexact HB
    isplitl [HC]; · iexact HC
    isplitl [HD]; · iexact HD
    isplitl [HE]; · iexact HE
    iexists _; iexact HS
  iexact Hg

end Cert.Kernel.Hand

end
-- ==== Proof.KVals.lean ====
/-
  The contents of the core's unscoped buffers at each boundary of the program: at launch; after the row-sum region (its
  result array at what the pipeline's write-backs leave, everything else as before); after the three host operations
  between the regions (a reshape of the scale column into a row, the transpose of the weights, a reshape of the bias);
  after the aggregation region (its result array at what its write-backs leave). No item writes an argument array, so each
  argument walks back to the launch contents; the scale column walks back to the row-sum region's result.
-/
import proofs.«167571_j15479062135162_1_alg».proof.Proof.KDat0
import proofs.«167571_j15479062135162_1_alg».proof.Proof.KDat1Def
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch (the row-sum region's entry: no host operation comes before it). -/
abbrev W0 : Dev nD → Valuation τ sig (Elt F) := fun c b => m ((c : Dev nD), b)
abbrev V1 : (c : Dev nD) → (b : Ref sig .tc) → Buf (Elt F) ((c : Thread nD τ).loc b) := fun c b => W0 m c b

/-- At the row-sum region's exit. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host operations between the regions (the aggregation region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At the aggregation region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

/-- The features: an input window of the aggregation region, bypassing the row-sum region. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 1).trans (((dat1 (V3 m) c).arrAt_in 1 rfl _).trans (A_eq1 (V3 m) c 1))
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := W2_of_ne m c main_arg0 (by decide)
    _ = m ((c : Thread nD τ).loc main_arg0) := rfl

/-- The adjacency: an input window of both regions. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((dat1 (V3 m) c).arrAt_in 0 rfl _).trans (A_eq1 (V3 m) c 0))
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W2_arr m c 0).trans (((dat0 (V1 m) c).arrAt_in 0 rfl _).trans (A_eq0 (V1 m) c 0))
    _ = m ((c : Thread nD τ).loc main_arg1) := rfl

/-- The weights: read by a host operation only. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := W2_of_ne m c main_arg2 (by decide)
    _ = m ((c : Thread nD τ).loc main_arg2) := rfl

/-- The bias: read by a host operation only. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := W2_of_ne m c main_arg3 (by decide)
    _ = m ((c : Thread nD τ).loc main_arg3) := rfl

/-! ## What the aggregation region finds -/

/-- The result array of the program is the aggregation region's result array after its write-backs. -/
theorem W4_main_v4 (c : Dev nD) : W4 m c (Proc.devRef .tc main_v4) = (dat1 (V3 m) c).arrAt 6 cfg1.N := W4_arr m c 6

/-- The adjacency and the features as the aggregation region finds them are the launch contents. -/
theorem V3_main_arg1 (c : Dev nD) : V3 m c main_arg1 = m ((c : Thread nD τ).loc main_arg1) :=
  (StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W2_arr m c 0).trans (((dat0 (V1 m) c).arrAt_in 0 rfl _).trans (A_eq0 (V1 m) c 0)))
theorem V3_main_arg0 (c : Dev nD) : V3 m c main_arg0 = m ((c : Thread nD τ).loc main_arg0) :=
  (StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_of_ne m c main_arg0 (by decide))

/-- The scale column as the aggregation region finds it is the row-sum region's result array. -/
theorem V3_main_v0 (c : Dev nD) : V3 m c main_v0 = (dat0 (V1 m) c).arrAt 1 cfg0.N :=
  (StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m c 1)

end Cert.Kernel.Hand

end
-- ==== Proof.KDat1.lean ====
/-
  The aggregation region's body obligation. At each point the body is one of three cases by t % 4. Each of the six input
  windows' staging buffers holds its block whether or not it was fetched there (the row scale is fetched once per row
  block, the weights and the bias once in all: unfetched, the block index did not move), and the body leaves it so. The
  result's staging buffer is idle (handed back as found, not written back) except at the last column block, where it is
  stored whole from the accumulator, the weights and the bias. The carried accumulator goes from what the point before
  left (anything, at the first column block, where it is reset) to this point's update of it.
-/
import proofs.«167571_j15479062135162_1_alg».proof.Proof.KDat1Def

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's current staging buffer: its block -/

/-- The adjacency window's current staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The feature window's current staging buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The row-scale window's current staging buffer holds its block at every point. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The column-scale window's current staging buffer holds its block at every point. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- The weights window's current staging buffer holds its block at every point. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- The bias window's current staging buffer holds its block at every point. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## What the body must leave in each input window's buffer: its block again -/

theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_in 0 (by decide) t], after1_0]

theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_in 1 (by decide) t], after1_1]

theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_in 2 (by decide) t], after1_2]

theorem leaves1_3 (c : Dev nD) (t : Fin cfg1.N) :
    (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_in 3 (by decide) t], after1_3]

theorem leaves1_4 (c : Dev nD) (t : Fin cfg1.N) :
    (dat1 V c).leavesExact 4 t = owns (c : Thread nD τ) (ms1_4 t) fullShare (iblk1 V c 4 t) := by
  rw [show (dat1 V c).leavesExact 4 t = owns (c : Thread nD τ) (ms1_4 t) fullShare ((dat1 V c).after 4 t) from by
    unfold Dat.leavesExact; rw [liveAt1_in 4 (by decide) t], after1_4]

theorem leaves1_5 (c : Dev nD) (t : Fin cfg1.N) :
    (dat1 V c).leavesExact 5 t = owns (c : Thread nD τ) (ms1_5 t) fullShare (iblk1 V c 5 t) := by
  rw [show (dat1 V c).leavesExact 5 t = owns (c : Thread nD τ) (ms1_5 t) fullShare ((dat1 V c).after 5 t) from by
    unfold Dat.leavesExact; rw [liveAt1_in 5 (by decide) t], after1_5]

/-! ## The body's pre- and postcondition at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-! ## The body, case by case -/

set_option maxHeartbeats 3200000 in
/-- The body at a last column block: the accumulator takes this block's product and the result buffer is stored from it. -/
theorem sound_body1_C (c : Dev nD) (t : Fin cfg1.N) (h1 : t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [leaves1_0, leaves1_1, leaves1_2, leaves1_3, leaves1_4, leaves1_5]
  have h0 : ¬t.val % 4 = 0 := by omega
  have hz : t.val ≠ 0 := by omega
  rw [show (dat1 V c).leavesExact 6 t = owns (c : Thread nD τ) (ms1_6 t) fullShare ((dat1 V c).after 6 t) from by
    unfold Dat.leavesExact; rw [liveAt1_6 t ((hcond1_1 t).mpr h1)], after1_6]
  unfold oAt1
  rw [sAt1_next V c t h0, Phi1_castSucc V c t, PhiS1_pos V c _ _ hz]
  unfold upd1
  iintro ⟨⟨⟨HA, HB, HC, HD, HE, HS⟩, Hg⟩, Ho, ⟨%d0, H0⟩, ⟨%d1, H1⟩, ⟨%d2, H2⟩, ⟨%d3, H3⟩, ⟨%d4, H4⟩, ⟨%d5, H5⟩, ⟨%d6, H6⟩⟩
  iapply (run1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [HA HB HC HD HE HS Hg]
  · isplitr [Hg]
    · isplitl [HA]; · iexact HA
      isplitl [HB]; · iexact HB
      isplitl [HC]; · iexact HC
      isplitl [HD]; · iexact HD
      isplitl [HE]; · iexact HE
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 3200000 in
/-- The body at the very first point: the accumulator, found at anything, is reset and takes this block's product. -/
theorem sound_body1_A0 (c : Dev nD) (t : Fin cfg1.N) (h0 : t.val % 4 = 0) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [leaves1_0, leaves1_1, leaves1_2, leaves1_3, leaves1_4, leaves1_5]
  have h1 : ¬t.val % 4 = 3 := by omega
  rw [Dat.leavesExact_idle (dat1 V c) 6 t (idleAt1_6 t (fun h => h1 ((hcond1_1 t).mp h))) (noFlush1_6 t (fun h => h1 ((hcond1_1 t).mp h)))]
  rw [sAt1_first V c t h0, Phi1_castSucc V c t, PhiS1_zero V c _ _ hz, PhiA1_eq]
  unfold upd1
  iintro ⟨⟨⟨HA, HB, HC, HD, HE, HS⟩, Hg⟩, Ho, ⟨%d0, H0⟩, ⟨%d1, H1⟩, ⟨%d2, H2⟩, ⟨%d3, H3⟩, ⟨%d4, H4⟩, ⟨%d5, H5⟩, ⟨%d6, H6⟩⟩
  iapply (run1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HA HB HC HD HE HS Hg]
  · isplitr [Hg]
    · isplitl [HA]; · iexact HA
      isplitl [HB]; · iexact HB
      isplitl [HC]; · iexact HC
      isplitl [HD]; · iexact HD
      isplitl [HE]; · iexact HE
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 3200000 in
/-- The body at a later row block's first column block: the accumulator is reset and takes this block's product. -/
theorem sound_body1_A (c : Dev nD) (t : Fin cfg1.N) (h0 : t.val % 4 = 0) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [leaves1_0, leaves1_1, leaves1_2, leaves1_3, leaves1_4, leaves1_5]
  have h1 : ¬t.val % 4 = 3 := by omega
  rw [Dat.leavesExact_idle (dat1 V c) 6 t (idleAt1_6 t (fun h => h1 ((hcond1_1 t).mp h))) (noFlush1_6 t (fun h => h1 ((hcond1_1 t).mp h)))]
  rw [sAt1_first V c t h0, Phi1_castSucc V c t, PhiS1_pos V c _ _ hz]
  unfold upd1
  iintro ⟨⟨⟨HA, HB, HC, HD, HE, HS⟩, Hg⟩, Ho, ⟨%d0, H0⟩, ⟨%d1, H1⟩, ⟨%d2, H2⟩, ⟨%d3, H3⟩, ⟨%d4, H4⟩, ⟨%d5, H5⟩, ⟨%d6, H6⟩⟩
  iapply (run1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexists _; iexact HS
  iintro ⟨H0, H1, H2, H3, H4, H5, H6, HS⟩
  isplitl [HA HB HC HD HE HS Hg]
  · isplitr [Hg]
    · isplitl [HA]; · iexact HA
      isplitl [HB]; · iexact HB
      isplitl [HC]; · iexact HC
      isplitl [HD]; · iexact HD
      isplitl [HE]; · iexact HE
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 3200000 in
/-- The body at a middle column block: the accumulator takes this block's product on top of what the point before left. -/
theorem sound_body1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [leaves1_0, leaves1_1, leaves1_2, leaves1_3, leaves1_4, leaves1_5]
  have hz : t.val ≠ 0 := by omega
  rw [Dat.leavesExact_idle (dat1 V c) 6 t (idleAt1_6 t (fun h => h1 ((hcond1_1 t).mp h))) (noFlush1_6 t (fun h => h1 ((hcond1_1 t).mp h)))]
  rw [sAt1_next V c t h0, Phi1_castSucc V c t, PhiS1_pos V c _ _ hz]
  unfold upd1
  iintro ⟨⟨⟨HA, HB, HC, HD, HE, HS⟩, Hg⟩, Ho, ⟨%d0, H0⟩, ⟨%d1, H1⟩, ⟨%d2, H2⟩, ⟨%d3, H3⟩, ⟨%d4, H4⟩, ⟨%d5, H5⟩, ⟨%d6, H6⟩⟩
  iapply (run1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HA HB HC HD HE HS Hg]
  · isplitr [Hg]
    · isplitl [HA]; · iexact HA
      isplitl [HB]; · iexact HB
      isplitl [HC]; · iexact HC
      isplitl [HD]; · iexact HD
      isplitl [HE]; · iexact HE
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- The body at any point, by its case. -/
theorem sound_body1 (c : Dev nD) (t : Fin cfg1.N) :
    bodyPre1 V c t ⊢ wp frame (wpE (defs₀ (F := F)) Variants.none c none) Set.univ (bodyAt1 t) (fun _ => bodyPost1 V c t) := by
  by_cases h1 : t.val % 4 = 3
  · exact sound_body1_C V c t h1
  · by_cases h0 : t.val % 4 = 0
    · by_cases hz : t.val = 0
      · exact sound_body1_A0 V c t h0 hz
      · exact sound_body1_A V c t h0 hz
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KGlue.lean ====
/-
  The program as three segments — the row-sum region, the three host operations, the aggregation region — launched once
  and run in order: every weakly fair execution terminates without a fault, and at the end every unscoped buffer of each
  core holds what the last boundary's valuation says. The arguments' buffers there are the launch contents (the frame);
  the result's buffer is the aggregation region's result array after its write-backs.
-/
import proofs.«167571_j15479062135162_1_alg».proof.Proof.KVals
import proofs.«167571_j15479062135162_1_alg».proof.Proof.KDat1
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor

/-- The host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W4 m c) ∗ ∃ r, prngReg c r)

set_option backward.isDefEq.respectTransparency.types false in
/-- Region 0 over the thread state: entered with every unscoped buffer at the boundary's contents, its arrays split out
    and put back at what the pipeline leaves; the generator register goes into the invariant and comes back; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    unfold Pipeline.ΦA at h
    rw [show (pdats m 0 c).Φ 0 = (dat0 (V1 m) c).Φ 0 from rfl]
    iintro ⟨Hp, -, Hr⟩
    iapply h
    isplitl [Hr]; · iexact Hr
    iexact Hp
  hout c := by
    rw [Pipeline.ownSems0_none, show (pdats m 0 c).Φ (Fin.last _) = (dat0 (V1 m) c).Φ (Fin.last cfg0.N) from rfl]
    have h := hout0 (V1 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, its arrays split out
    and put back at what the pipeline leaves; the generator register goes into the invariant and comes back; nothing is
    owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m) c
    unfold Pipeline.ΦA at h
    rw [show (pdats m 1 c).Φ 0 = (dat1 (V3 m) c).Φ 0 from rfl]
    iintro ⟨Hp, -, Hr⟩
    iapply h
    isplitl [Hr]; · iexact Hr
    iexact Hp
  hout c := by
    rw [Pipeline.ownSems0_none, show (pdats m 1 c).Φ (Fin.last _) = (dat1 (V3 m) c).Φ (Fin.last cfg1.N) from rfl]
    have h := hout1 (V3 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three segments in order. -/
abbrev segs : List (Pipeline.Seg (pcfgs (F := F)) adm (pdats m) () defs₀ 𝒱₀ L lv) :=
  [ .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution terminates, nothing faulting, and at the end every
    unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.Kernel.Hand

end
-- ==== Proof.KICases.lean ====
/-
  The two kernels' control: each body branches twice on the grid's second coordinate — "first column block of the row
  block" (reset the accumulator) and "last column block" (finish and store the result). Both grids are 8 x 4, point
  t = 4 i + j, so the conditions hold exactly at t % 4 = 0 and at t % 4 = 3; an output window is idle, and not
  written back, at the points where the second condition fails.
-/
import proofs.«167571_j15479062135162_1_alg».proof.Proof.Gen.KernelIdeal.Launch
import proofs.«167571_j15479062135162_1_alg».proof.Proof.Gen.KernelIdeal.Skeleton
import proofs.«167571_j15479062135162_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The row-sum kernel's two conditions -/

/-- "This is the first column block": the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "This is the last column block": the second grid coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The aggregation kernel's two conditions -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_in : ∀ (w : Fin 7), w.val < 6 → ∀ t : Fin cfg1.N, cfg1.idle w (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The staging memrefs at a point, as the pipeline passes them, and the scratch accumulators -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev scM0 : Memref sig .tc .vmem S1024x1 .f32 := Memref.whole cc0_scratch0

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
abbrev scM1 : Memref sig .tc .vmem S1024x128 .f32 := Memref.whole cc1_scratch0

end Cert.KernelIdeal.Hand

end
-- ==== Proof.KIRun0.lean ====
/-
  The row-sum kernel's body, run in each of its three control cases on whole staging memrefs. Every store of the body
  is a whole-buffer store, so what a buffer holds afterwards is the LAST payload stored into it, a function of what
  the body loaded: the accumulator ends at "what it held (zero after a reset) plus this block's row sums", and in the
  last case the result buffer ends at rsqrt of that plus the constant.
-/
import proofs.«167571_j15479062135162_1_alg».proof.Proof.KICases
import proofs.«167571_j15479062135162_1_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- First column block: the accumulator is reset, then takes this block's row sums. -/
theorem run0_A (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole)
    (hc0 : cond0_0 i) (hc1 : ¬cond0_1 i) (x0 : Vec F S1024x2048 .f32) (d3 : Vec F S1024x1 .f32) (E : Set ℕ) (K : PUnit → sProp 𝕄) :
    iprop(owns (c : Thread nD τ) arg2 fullShare x0 ∗ owns (c : Thread nD τ) arg3 fullShare d3 ∗ (∃ d, owns (c : Thread nD τ) arg4 fullShare d)
      ∗ (iprop(owns (c : Thread nD τ) arg2 fullShare x0 ∗ owns (c : Thread nD τ) arg3 fullShare d3 ∗ owns (c : Thread nD τ) arg4 fullShare (k0_pay2 (k0_pay1 (F := F)) x0)) -∗ K ⟨⟩))
    ⊢ wp frame (wpE (defs₀ (F := F)) Variants.none c none) E (cc0__rowsum_kernel i arg2 harg2 arg3 harg3 arg4 harg4) K := by
  simp only [cc0__rowsum_kernel_eq_skeleton]; unfold cc0__rowsum_kernel_skel
  unfold owns
  iintro ⟨⟨%f0, %hf0, H0⟩, ⟨%f1, %hf1, H1⟩, ⟨%ds0, %fs0, %hfs0, HS0⟩, Hk⟩
  obtain rfl := harg2.eq_unread hf0
  sl_exec (disch := first | exact hc0 | exact hc1)
  sl_step
  iapply Hk
  isplitl [H0]
  · iexists _; isplitr; · ipureintro; exact harg2.read_unread _
    iexact H0
  isplitl [H1]
  · iexists _; isplitr; · ipureintro; exact hf1
    iexact H1
  iexists _; isplitr
  swap; · iexact HS0
  ipureintro
  have hz : (![0, 0] : Fin S1024x1.rank → ℕ) = fun _ => 0 := by funext a; fin_cases a <;> rfl
  have hz2 : (![0, 0] : Fin S1024x2048.rank → ℕ) = fun _ => 0 := by funext a; fin_cases a <;> rfl
  sl_unfold_words
  simp only [View.read_writes_cons_unit_zero (S := S1024x1) _ _ hz, View.readCov_unit_zero (S := S1024x1) _ hz, View.readAt_eq_ld, harg4.read_unread, harg2.read_unread,
    View.ld_unit_zero (S := S1024x1) hz, View.ld_unit_zero (S := S1024x2048) hz2]

/-- A middle column block: the accumulator takes this block's row sums on top of what it held. -/
theorem run0_B (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole)
    (hc0 : ¬cond0_0 i) (hc1 : ¬cond0_1 i) (x0 : Vec F S1024x2048 .f32) (d3 : Vec F S1024x1 .f32) (xs : Vec F S1024x1 .f32) (E : Set ℕ) (K : PUnit → sProp 𝕄) :
    iprop(owns (c : Thread nD τ) arg2 fullShare x0 ∗ owns (c : Thread nD τ) arg3 fullShare d3 ∗ owns (c : Thread nD τ) arg4 fullShare xs
      ∗ (iprop(owns (c : Thread nD τ) arg2 fullShare x0 ∗ owns (c : Thread nD τ) arg3 fullShare d3 ∗ owns (c : Thread nD τ) arg4 fullShare (k0_pay2 xs x0)) -∗ K ⟨⟩))
    ⊢ wp frame (wpE (defs₀ (F := F)) Variants.none c none) E (cc0__rowsum_kernel i arg2 harg2 arg3 harg3 arg4 harg4) K := by
  simp only [cc0__rowsum_kernel_eq_skeleton]; unfold cc0__rowsum_kernel_skel
  unfold owns
  iintro ⟨⟨%f0, %hf0, H0⟩, ⟨%f1, %hf1, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact hf1
    iexact H1
  iexists _; isplitr
  swap; · iexact HS0
  ipureintro
  have hz : (![0, 0] : Fin S1024x1.rank → ℕ) = fun _ => 0 := by funext a; fin_cases a <;> rfl
  have hz2 : (![0, 0] : Fin S1024x2048.rank → ℕ) = fun _ => 0 := by funext a; fin_cases a <;> rfl
  sl_unfold_words
  simp only [View.read_writes_cons_unit_zero (S := S1024x1) _ _ hz, View.readCov_unit_zero (S := S1024x1) _ hz, View.readAt_eq_ld, harg4.read_unread, harg2.read_unread,
    View.ld_unit_zero (S := S1024x1) hz, View.ld_unit_zero (S := S1024x2048) hz2]

/-- Last column block: the accumulator takes this block's row sums, and the result buffer is stored whole from it. -/
theorem run0_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole)
    (hc0 : ¬cond0_0 i) (hc1 : cond0_1 i) (x0 : Vec F S1024x2048 .f32) (xs : Vec F S1024x1 .f32) (E : Set ℕ) (K : PUnit → sProp 𝕄) :
    iprop(owns (c : Thread nD τ) arg2 fullShare x0 ∗ (∃ d, owns (c : Thread nD τ) arg3 fullShare d) ∗ owns (c : Thread nD τ) arg4 fullShare xs
      ∗ (iprop(owns (c : Thread nD τ) arg2 fullShare x0 ∗ owns (c : Thread nD τ) arg3 fullShare (k0_pay3 (k0_pay2 xs x0)) ∗ owns (c : Thread nD τ) arg4 fullShare (k0_pay2 xs x0)) -∗ K ⟨⟩))
    ⊢ wp frame (wpE (defs₀ (F := F)) Variants.none c none) E (cc0__rowsum_kernel i arg2 harg2 arg3 harg3 arg4 harg4) K := by
  simp only [cc0__rowsum_kernel_eq_skeleton]; unfold cc0__rowsum_kernel_skel
  unfold owns
  iintro ⟨⟨%f0, %hf0, H0⟩, ⟨%d1, %f1, %hf1, H1⟩, ⟨%fs0, %hfs0, HS0⟩, Hk⟩
  obtain rfl := harg2.eq_unread hf0; obtain rfl := harg4.eq_unread hfs0
  sl_exec (disch := first | exact hc0 | exact hc1)
  sl_step
  iapply Hk
  have hz : (![0, 0] : Fin S1024x1.rank → ℕ) = fun _ => 0 := by funext a; fin_cases a <;> rfl
  have hz2 : (![0, 0] : Fin S1024x2048.rank → ℕ) = fun _ => 0 := by funext a; fin_cases a <;> rfl
  isplitl [H0]
  · iexists _; isplitr; · ipureintro; exact harg2.read_unread _
    iexact H0
  isplitl [H1]
  · iexists _; isplitr
    swap; · iexact H1
    ipureintro
    sl_unfold_words
    simp only [View.read_writes_cons_unit_zero (S := S1024x1) _ _ hz, View.readCov_unit_zero (S := S1024x1) _ hz, View.readAt_eq_ld, harg4.read_unread, harg2.read_unread,
      View.ld_unit_zero (S := S1024x1) hz, View.ld_unit_zero (S := S1024x2048) hz2]
  iexists _; isplitr
  swap; · iexact HS0
  ipureintro
  sl_unfold_words
  simp only [View.read_writes_cons_unit_zero (S := S1024x1) _ _ hz, View.readCov_unit_zero (S := S1024x1) _ hz, View.readAt_eq_ld, harg4.read_unread, harg2.read_unread,
    View.ld_unit_zero (S := S1024x1) hz, View.ld_unit_zero (S := S1024x2048) hz2]

end Cert.KernelIdeal.Hand

end
-- ==== Proof.KIAcc.lean ====
/-
  What the two kernels' accumulators and result buffers hold after each grid point, as pure functions of the arrays the
  region finds. Point t = 4 i + j handles row block i and column block j. The accumulator after point t is, by recursion
  on t: at j = 0 the body's update of a zeroed accumulator with this point's blocks, otherwise its update of what the
  point before left. The result's staging buffer is written only at j = 3, from the accumulator there.
-/
import proofs.«167571_j15479062135162_1_alg».proof.Proof.KICases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The row-sum kernel -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator (1024 partial row sums) after point `n`. -/
def sAt0 (c : Dev nD) : (n : ℕ) → n < cfg0.N → Vec F S1024x1 .f32
  | 0, hn => k0_pay2 (k0_pay1 (F := F)) (iblk0 V c 0 ⟨0, hn⟩)
  | n + 1, hn =>
    if (n + 1) % 4 = 0 then k0_pay2 (k0_pay1 (F := F)) (iblk0 V c 0 ⟨n + 1, hn⟩)
    else k0_pay2 (sAt0 c n (Nat.lt_of_succ_lt hn)) (iblk0 V c 0 ⟨n + 1, hn⟩)

/-- At the first column block of a row block the accumulator restarts from zero. -/
theorem sAt0_first (c : Dev nD) (t : Fin cfg0.N) (h : t.val % 4 = 0) :
    sAt0 V c t.val t.isLt = k0_pay2 (k0_pay1 (F := F)) (iblk0 V c 0 t) := by
  obtain ⟨n, hn⟩ := t
  cases n with
  | zero => rfl
  | succ n => exact if_pos h

/-- At any other column block it continues from what the point before left. -/
theorem sAt0_next (c : Dev nD) (t : Fin cfg0.N) (h : ¬t.val % 4 = 0) :
    sAt0 V c t.val t.isLt = k0_pay2 (sAt0 V c (t.val - 1) (Nat.lt_of_le_of_lt (Nat.sub_le _ _) t.isLt)) (iblk0 V c 0 t) := by
  obtain ⟨n, hn⟩ := t
  cases n with
  | zero => exact absurd (Nat.zero_mod _) h
  | succ n => exact if_neg h

/-- The result's staging buffer after point `t` (stored at the last column block only; elsewhere this is not consulted). -/
def oAt0 (c : Dev nD) (t : Fin cfg0.N) : Vec F S1024x1 .f32 := k0_pay3 (sAt0 V c t.val t.isLt)

/-! ## The aggregation kernel -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the accumulator `acc`: windows 0 (adjacency block), 2 (row scale), 3 (column scale), 1 (feature block). -/
def upd1 (c : Dev nD) (t : Fin cfg1.N) (acc : Vec F S1024x128 .f32) : Vec F S1024x128 .f32 :=
  k1_pay2 (iblk1 V c 0 t) (iblk1 V c 2 t) (iblk1 V c 3 t) (iblk1 V c 1 t) acc

/-- The accumulator (a 1024 x 128 partial product) after point `n`. -/
def sAt1 (c : Dev nD) : (n : ℕ) → n < cfg1.N → Vec F S1024x128 .f32
  | 0, hn => upd1 V c ⟨0, hn⟩ (k1_pay1 (F := F))
  | n + 1, hn =>
    if (n + 1) % 4 = 0 then upd1 V c ⟨n + 1, hn⟩ (k1_pay1 (F := F))
    else upd1 V c ⟨n + 1, hn⟩ (sAt1 c n (Nat.lt_of_succ_lt hn))

theorem sAt1_first (c : Dev nD) (t : Fin cfg1.N) (h : t.val % 4 = 0) :
    sAt1 V c t.val t.isLt = upd1 V c t (k1_pay1 (F := F)) := by
  obtain ⟨n, hn⟩ := t
  cases n with
  | zero => rfl
  | succ n => exact if_pos h

theorem sAt1_next (c : Dev nD) (t : Fin cfg1.N) (h : ¬t.val % 4 = 0) :
    sAt1 V c t.val t.isLt = upd1 V c t (sAt1 V c (t.val - 1) (Nat.lt_of_le_of_lt (Nat.sub_le _ _) t.isLt)) := by
  obtain ⟨n, hn⟩ := t
  cases n with
  | zero => exact absurd (Nat.zero_mod _) h
  | succ n => exact if_neg h

/-- The result's staging buffer after point `t` (stored at the last column block only): the accumulator times the
    transposed-weights block (window 4) plus the bias row (window 5). -/
def oAt1 (c : Dev nD) (t : Fin cfg1.N) : Vec F S1024x128 .f32 :=
  k1_pay3 (sAt1 V c t.val t.isLt) (iblk1 V c 4 t) (iblk1 V c 5 t)

end Cert.KernelIdeal.Hand

end
-- ==== Proof.KIDat0.lean ====
/-
  The row-sum region's proof data and its body obligation. Between two points the region's invariant holds the carried
  accumulator at exactly what the point before left in it (before the first point: at anything, like every other scoped
  buffer the pipeline does not stage), the core's other scoped buffers at anything, and the generator register at some
  state. At each point the body is one of three cases by t % 4; the input's staging buffer holds its block whether or not
  it was fetched there; the result's staging buffer is idle (handed back as found, not written back) except at the last
  column block, where it is stored whole from the accumulator.
-/
import proofs.«167571_j15479062135162_1_alg».proof.Proof.KIRun0
import proofs.«167571_j15479062135162_1_alg».proof.Proof.KIAcc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The core's scoped buffers other than the row-sum accumulator that the row-sum pipeline does not stage, each at anything. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The class invariant with the accumulator pulled out as an owned memref. -/
theorem PhiA0_eq (c : Dev nD) :
    (Pipeline.ΦA spec0 c : sProp 𝕄)
      = iprop(((∃ d, owns (c : Thread nD τ) scM0 fullShare d) ∗ Rest0 (F := F) c) ∗ (∃ r, prngReg c r)) := by
  unfold Pipeline.ΦA Rest0; rw [scopedRest0_eq]; simp only [scM0, owns_whole]; try rfl

/-- The invariant before position `n`: before the first point the class's; afterwards the accumulator at what point
    `n - 1` left. -/
def PhiS0 (c : Dev nD) : (n : ℕ) → n ≤ cfg0.N → sProp 𝕄
  | 0, _ => Pipeline.ΦA spec0 c
  | n + 1, hn => iprop((owns (c : Thread nD τ) scM0 fullShare (sAt0 V c n hn) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (sAt0 V c n hn) ∗ Rest0 (F := F) c) ∗ (∃ r, prngReg c r)) := rfl

theorem PhiS0_pos (c : Dev nD) (n : ℕ) (h : n ≤ cfg0.N) (hz : n ≠ 0) :
    PhiS0 V c n h = iprop((owns (c : Thread nD τ) scM0 fullShare (sAt0 V c (n - 1) (by omega)) ∗ Rest0 (F := F) c) ∗ (∃ r, prngReg c r)) := by
  cases n with
  | zero => exact absurd rfl hz
  | succ n => rfl

/-- The row-sum pipeline's proof data on core `c`, from the contents `V` the region finds. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => oAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = oAt0 V c t := by dsimp only [dat0]

/-- The adjacency window's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 1600000 in
/-- The body at any point, by its case. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  by_cases h1 : t.val % 4 = 3
  · have h0 : ¬t.val % 4 = 0 := by omega
    have hz : t.val ≠ 0 := by omega
    rw [show (dat0 V c).leavesExact 1 t = owns (c : Thread nD τ) (ms0_1 t) fullShare ((dat0 V c).after 1 t) from by
      unfold Dat.leavesExact; rw [liveAt0_1 t ((hcond0_1 t).mpr h1)], after0_1]
    unfold oAt0
    rw [sAt0_next V c t h0, Phi0_castSucc V c t, PhiS0_pos V c _ _ hz]
    iintro ⟨⟨⟨HS0, HR⟩, Hg⟩, Ho, ⟨%d0, H0⟩, ⟨%d1, H1⟩⟩
    iapply (run0_C c (grid0.coords t) _ _ _ _ _ _ (fun h => h0 ((hcond0_0 t).mp h)) ((hcond0_1 t).mpr h1) (iblk0 V c 0 t) _ Set.univ _)
    isplitl [H0]; · iexact H0
    isplitl [H1]; · iexists _; iexact H1
    isplitl [HS0]; · iexact HS0
    iintro ⟨H0, H1, HS0⟩
    isplitl [HS0 HR Hg]
    · isplitl [HS0 HR]
      · isplitl [HS0]; · iexact HS0
        iexact HR
      iexact Hg
    isplitl [Ho]; · iexact Ho
    isplitl [H0]; · iexact H0
    iexact H1
  · rw [Dat.leavesExact_idle (dat0 V c) 1 t (idleAt0_1 t (fun h => h1 ((hcond0_1 t).mp h))) (noFlush0_1 t (fun h => h1 ((hcond0_1 t).mp h)))]
    by_cases h0 : t.val % 4 = 0
    · rw [sAt0_first V c t h0]
      by_cases hz : t.val = 0
      · rw [Phi0_castSucc V c t, PhiS0_zero V c _ _ hz, PhiA0_eq]
        iintro ⟨⟨⟨HS0, HR⟩, Hg⟩, Ho, ⟨%d0, H0⟩, ⟨%d1, H1⟩⟩
        iapply (run0_A c (grid0.coords t) _ _ _ _ _ _ ((hcond0_0 t).mpr h0) (fun h => h1 ((hcond0_1 t).mp h)) (iblk0 V c 0 t) _ Set.univ _)
        isplitl [H0]; · iexact H0
        isplitl [H1]; · iexact H1
        isplitl [HS0]; · iexact HS0
        iintro ⟨H0, H1, HS0⟩
        isplitl [HS0 HR Hg]
        · isplitl [HS0 HR]
          · isplitl [HS0]; · iexact HS0
            iexact HR
          iexact Hg
        isplitl [Ho]; · iexact Ho
        isplitl [H0]; · iexact H0
        iexists _; iexact H1
      · rw [Phi0_castSucc V c t, PhiS0_pos V c _ _ hz]
        iintro ⟨⟨⟨HS0, HR⟩, Hg⟩, Ho, ⟨%d0, H0⟩, ⟨%d1, H1⟩⟩
        iapply (run0_A c (grid0.coords t) _ _ _ _ _ _ ((hcond0_0 t).mpr h0) (fun h => h1 ((hcond0_1 t).mp h)) (iblk0 V c 0 t) _ Set.univ _)
        isplitl [H0]; · iexact H0
        isplitl [H1]; · iexact H1
        isplitl [HS0]; · iexists _; iexact HS0
        iintro ⟨H0, H1, HS0⟩
        isplitl [HS0 HR Hg]
        · isplitl [HS0 HR]
          · isplitl [HS0]; · iexact HS0
            iexact HR
          iexact Hg
        isplitl [Ho]; · iexact Ho
        isplitl [H0]; · iexact H0
        iexists _; iexact H1
    · have hz : t.val ≠ 0 := by omega
      rw [sAt0_next V c t h0, Phi0_castSucc V c t, PhiS0_pos V c _ _ hz]
      iintro ⟨⟨⟨HS0, HR⟩, Hg⟩, Ho, ⟨%d0, H0⟩, ⟨%d1, H1⟩⟩
      iapply (run0_B c (grid0.coords t) _ _ _ _ _ _ (fun h => h0 ((hcond0_0 t).mp h)) (fun h => h1 ((hcond0_1 t).mp h)) (iblk0 V c 0 t) _ _ Set.univ _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region's entry hands over is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have hN : cfg0.N = 32 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS0, HR⟩, Hg⟩
  isplitl [HS0 HR]
  · isplitl [HS0]; · iexists _; iexact HS0
    iexact HR
  iexact Hg

end Cert.KernelIdeal.Hand

end
-- ==== Proof.KIRun1.lean ====
/-
  The aggregation kernel's body, run in each of its three control cases on whole staging memrefs. Every store is a
  whole-buffer store, so a buffer ends at the last payload stored into it: the accumulator at "what it held (zero after a
  reset) plus the product of this block of the scaled adjacency with this block of the features", and in the last case the
  result buffer at that accumulator times the transposed weights plus the bias row.
-/
import proofs.«167571_j15479062135162_1_alg».proof.Proof.KICases
import proofs.«167571_j15479062135162_1_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- First column block: the accumulator is reset, then takes this block's product. -/
theorem run1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole)
    (hc0 : cond1_0 i) (hc1 : ¬cond1_1 i) (a : Vec F S1024x2048 .f32) (x : Vec F S2048x128 .f32) (dr : Vec F S1024x1 .f32) (dc : Vec F S1x2048 .f32) (w : Vec F S128x128 .f32) (b : Vec F S1x128 .f32) (d8 : Vec F S1024x128 .f32) (E : Set ℕ) (K : PUnit → sProp 𝕄) :
    iprop(owns (c : Thread nD τ) arg2 fullShare a ∗ owns (c : Thread nD τ) arg3 fullShare x ∗ owns (c : Thread nD τ) arg4 fullShare dr ∗ owns (c : Thread nD τ) arg5 fullShare dc ∗ owns (c : Thread nD τ) arg6 fullShare w ∗ owns (c : Thread nD τ) arg7 fullShare b ∗ owns (c : Thread nD τ) arg8 fullShare d8 ∗ (∃ d, owns (c : Thread nD τ) arg9 fullShare d)
      ∗ (iprop(owns (c : Thread nD τ) arg2 fullShare a ∗ owns (c : Thread nD τ) arg3 fullShare x ∗ owns (c : Thread nD τ) arg4 fullShare dr ∗ owns (c : Thread nD τ) arg5 fullShare dc ∗ owns (c : Thread nD τ) arg6 fullShare w ∗ owns (c : Thread nD τ) arg7 fullShare b ∗ owns (c : Thread nD τ) arg8 fullShare d8 ∗ owns (c : Thread nD τ) arg9 fullShare (k1_pay2 a dr dc x (k1_pay1 (F := F)))) -∗ K ⟨⟩))
    ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | exact hc0 | exact hc1)
  sl_step
  iapply Hk
  have hz_S1024x2048 : (![0, 0] : Fin S1024x2048.rank → ℕ) = fun _ => 0 := by funext a; fin_cases a <;> rfl
  have hz_S2048x128 : (![0, 0] : Fin S2048x128.rank → ℕ) = fun _ => 0 := by funext a; fin_cases a <;> rfl
  have hz_S1024x1 : (![0, 0] : Fin S1024x1.rank → ℕ) = fun _ => 0 := by funext a; fin_cases a <;> rfl
  have hz_S1x2048 : (![0, 0] : Fin S1x2048.rank → ℕ) = fun _ => 0 := by funext a; fin_cases a <;> rfl
  have hz_S128x128 : (![0, 0] : Fin S128x128.rank → ℕ) = fun _ => 0 := by funext a; fin_cases a <;> rfl
  have hz_S1x128 : (![0, 0] : Fin S1x128.rank → ℕ) = fun _ => 0 := by funext a; fin_cases a <;> rfl
  have hz_S1024x128 : (![0, 0] : Fin S1024x128.rank → ℕ) = fun _ => 0 := by funext a; fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact hf8
    iexact H8
  iexists _; isplitr
  swap; · iexact H9
  ipureintro
  sl_unfold_words
  simp only [View.read_writes_cons_unit_zero (S := S1024x128) _ _ hz_S1024x128, View.readCov_unit_zero (S := S1024x128) _ hz_S1024x128, View.readAt_eq_ld,
    harg2.read_unread, harg3.read_unread, harg4.read_unread, harg5.read_unread, harg6.read_unread, harg7.read_unread, harg9.read_unread,
    View.ld_unit_zero (S := S1024x2048) hz_S1024x2048, View.ld_unit_zero (S := S2048x128) hz_S2048x128, View.ld_unit_zero (S := S1024x1) hz_S1024x1, View.ld_unit_zero (S := S1x2048) hz_S1x2048, View.ld_unit_zero (S := S128x128) hz_S128x128, View.ld_unit_zero (S := S1x128) hz_S1x128, View.ld_unit_zero (S := S1024x128) hz_S1024x128]

/-- A middle column block: the accumulator takes this block's product on top of what it held. -/
theorem run1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole)
    (hc0 : ¬cond1_0 i) (hc1 : ¬cond1_1 i) (a : Vec F S1024x2048 .f32) (x : Vec F S2048x128 .f32) (dr : Vec F S1024x1 .f32) (dc : Vec F S1x2048 .f32) (w : Vec F S128x128 .f32) (b : Vec F S1x128 .f32) (d8 : Vec F S1024x128 .f32) (xs : Vec F S1024x128 .f32) (E : Set ℕ) (K : PUnit → sProp 𝕄) :
    iprop(owns (c : Thread nD τ) arg2 fullShare a ∗ owns (c : Thread nD τ) arg3 fullShare x ∗ owns (c : Thread nD τ) arg4 fullShare dr ∗ owns (c : Thread nD τ) arg5 fullShare dc ∗ owns (c : Thread nD τ) arg6 fullShare w ∗ owns (c : Thread nD τ) arg7 fullShare b ∗ owns (c : Thread nD τ) arg8 fullShare d8 ∗ owns (c : Thread nD τ) arg9 fullShare xs
      ∗ (iprop(owns (c : Thread nD τ) arg2 fullShare a ∗ owns (c : Thread nD τ) arg3 fullShare x ∗ owns (c : Thread nD τ) arg4 fullShare dr ∗ owns (c : Thread nD τ) arg5 fullShare dc ∗ owns (c : Thread nD τ) arg6 fullShare w ∗ owns (c : Thread nD τ) arg7 fullShare b ∗ owns (c : Thread nD τ) arg8 fullShare d8 ∗ owns (c : Thread nD τ) arg9 fullShare (k1_pay2 a dr dc x xs)) -∗ K ⟨⟩))
    ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9
  sl_exec (disch := first | exact hc0 | exact hc1)
  sl_step
  iapply Hk
  have hz_S1024x2048 : (![0, 0] : Fin S1024x2048.rank → ℕ) = fun _ => 0 := by funext a; fin_cases a <;> rfl
  have hz_S2048x128 : (![0, 0] : Fin S2048x128.rank → ℕ) = fun _ => 0 := by funext a; fin_cases a <;> rfl
  have hz_S1024x1 : (![0, 0] : Fin S1024x1.rank → ℕ) = fun _ => 0 := by funext a; fin_cases a <;> rfl
  have hz_S1x2048 : (![0, 0] : Fin S1x2048.rank → ℕ) = fun _ => 0 := by funext a; fin_cases a <;> rfl
  have hz_S128x128 : (![0, 0] : Fin S128x128.rank → ℕ) = fun _ => 0 := by funext a; fin_cases a <;> rfl
  have hz_S1x128 : (![0, 0] : Fin S1x128.rank → ℕ) = fun _ => 0 := by funext a; fin_cases a <;> rfl
  have hz_S1024x128 : (![0, 0] : Fin S1024x128.rank → ℕ) = fun _ => 0 := by funext a; fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact hf8
    iexact H8
  iexists _; isplitr
  swap; · iexact H9
  ipureintro
  sl_unfold_words
  simp only [View.read_writes_cons_unit_zero (S := S1024x128) _ _ hz_S1024x128, View.readCov_unit_zero (S := S1024x128) _ hz_S1024x128, View.readAt_eq_ld,
    harg2.read_unread, harg3.read_unread, harg4.read_unread, harg5.read_unread, harg6.read_unread, harg7.read_unread, harg9.read_unread,
    View.ld_unit_zero (S := S1024x2048) hz_S1024x2048, View.ld_unit_zero (S := S2048x128) hz_S2048x128, View.ld_unit_zero (S := S1024x1) hz_S1024x1, View.ld_unit_zero (S := S1x2048) hz_S1x2048, View.ld_unit_zero (S := S128x128) hz_S128x128, View.ld_unit_zero (S := S1x128) hz_S1x128, View.ld_unit_zero (S := S1024x128) hz_S1024x128]

/-- Last column block: the accumulator takes this block's product, and the result buffer is stored whole from it. -/
theorem run1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole)
    (hc0 : ¬cond1_0 i) (hc1 : cond1_1 i) (a : Vec F S1024x2048 .f32) (x : Vec F S2048x128 .f32) (dr : Vec F S1024x1 .f32) (dc : Vec F S1x2048 .f32) (w : Vec F S128x128 .f32) (b : Vec F S1x128 .f32) (xs : Vec F S1024x128 .f32) (E : Set ℕ) (K : PUnit → sProp 𝕄) :
    iprop(owns (c : Thread nD τ) arg2 fullShare a ∗ owns (c : Thread nD τ) arg3 fullShare x ∗ owns (c : Thread nD τ) arg4 fullShare dr ∗ owns (c : Thread nD τ) arg5 fullShare dc ∗ owns (c : Thread nD τ) arg6 fullShare w ∗ owns (c : Thread nD τ) arg7 fullShare b ∗ (∃ d, owns (c : Thread nD τ) arg8 fullShare d) ∗ owns (c : Thread nD τ) arg9 fullShare xs
      ∗ (iprop(owns (c : Thread nD τ) arg2 fullShare a ∗ owns (c : Thread nD τ) arg3 fullShare x ∗ owns (c : Thread nD τ) arg4 fullShare dr ∗ owns (c : Thread nD τ) arg5 fullShare dc ∗ owns (c : Thread nD τ) arg6 fullShare w ∗ owns (c : Thread nD τ) arg7 fullShare b ∗ owns (c : Thread nD τ) arg8 fullShare (k1_pay3 (k1_pay2 a dr dc x xs) w b) ∗ owns (c : Thread nD τ) arg9 fullShare (k1_pay2 a dr dc x xs)) -∗ K ⟨⟩))
    ⊢ wp frame (wpE (defs₀ (F := F)) Variants.none c none) E (cc1__gcn_kernel i arg2 harg2 arg3 harg3 arg4 harg4 arg5 harg5 arg6 harg6 arg7 harg7 arg8 harg8 arg9 harg9) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, ⟨%f9, %hf9, H9⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9
  sl_exec (disch := first | exact hc0 | exact hc1)
  sl_step
  iapply Hk
  have hz_S1024x2048 : (![0, 0] : Fin S1024x2048.rank → ℕ) = fun _ => 0 := by funext a; fin_cases a <;> rfl
  have hz_S2048x128 : (![0, 0] : Fin S2048x128.rank → ℕ) = fun _ => 0 := by funext a; fin_cases a <;> rfl
  have hz_S1024x1 : (![0, 0] : Fin S1024x1.rank → ℕ) = fun _ => 0 := by funext a; fin_cases a <;> rfl
  have hz_S1x2048 : (![0, 0] : Fin S1x2048.rank → ℕ) = fun _ => 0 := by funext a; fin_cases a <;> rfl
  have hz_S128x128 : (![0, 0] : Fin S128x128.rank → ℕ) = fun _ => 0 := by funext a; fin_cases a <;> rfl
  have hz_S1x128 : (![0, 0] : Fin S1x128.rank → ℕ) = fun _ => 0 := by funext a; fin_cases a <;> rfl
  have hz_S1024x128 : (![0, 0] : Fin S1024x128.rank → ℕ) = fun _ => 0 := by funext a; fin_cases a <;> rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_words
    simp only [View.read_writes_cons_unit_zero (S := S1024x128) _ _ hz_S1024x128, View.readCov_unit_zero (S := S1024x128) _ hz_S1024x128, View.readAt_eq_ld,
      harg2.read_unread, harg3.read_unread, harg4.read_unread, harg5.read_unread, harg6.read_unread, harg7.read_unread, harg9.read_unread,
      View.ld_unit_zero (S := S1024x2048) hz_S1024x2048, View.ld_unit_zero (S := S2048x128) hz_S2048x128, View.ld_unit_zero (S := S1024x1) hz_S1024x1, View.ld_unit_zero (S := S1x2048) hz_S1x2048, View.ld_unit_zero (S := S128x128) hz_S128x128, View.ld_unit_zero (S := S1x128) hz_S1x128, View.ld_unit_zero (S := S1024x128) hz_S1024x128]
  iexists _; isplitr
  swap; · iexact H9
  ipureintro
  sl_unfold_words
  simp only [View.read_writes_cons_unit_zero (S := S1024x128) _ _ hz_S1024x128, View.readCov_unit_zero (S := S1024x128) _ hz_S1024x128, View.readAt_eq_ld,
    harg2.read_unread, harg3.read_unread, harg4.read_unread, harg5.read_unread, harg6.read_unread, harg7.read_unread, harg9.read_unread,
    View.ld_unit_zero (S := S1024x2048) hz_S1024x2048, View.ld_unit_zero (S := S2048x128) hz_S2048x128, View.ld_unit_zero (S := S1024x1) hz_S1024x1, View.ld_unit_zero (S := S1x2048) hz_S1x2048, View.ld_unit_zero (S := S128x128) hz_S128x128, View.ld_unit_zero (S := S1x128) hz_S1x128, View.ld_unit_zero (S := S1024x128) hz_S1024x128]

end Cert.KernelIdeal.Hand

end
-- ==== Proof.KIDat1Def.lean ====
/-
  The aggregation region's proof data. Between two points the region's invariant holds the carried accumulator at exactly
  what the point before left in it (before the first point: at anything), the core's other scoped buffers the pipeline
  does not stage at anything, and the generator register at some state. After the body at point t every input window's
  staging buffer holds its block, and the result's holds the accumulator times the weights plus the bias (consulted only
  at the last column block, the one point of a row block where it is stored and written back).
-/
import proofs.«167571_j15479062135162_1_alg».proof.Proof.KIRun1
import proofs.«167571_j15479062135162_1_alg».proof.Proof.KIAcc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The class invariant with the accumulator (the last of the six scoped buffers the pipeline does not stage) as an owned memref. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

/-- The invariant before position `n`: before the first point the class's; afterwards the accumulator at what point
    `n - 1` left. -/
def PhiS1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1 fullShare (sAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1 fullShare (sAt1 V c n hn)) ∗ (∃ r, prngReg c r)) := rfl

theorem PhiS1_pos (c : Dev nD) (n : ℕ) (h : n ≤ cfg1.N) (hz : n ≠ 0) :
    PhiS1 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1 fullShare (sAt1 V c (n - 1) (by omega))) ∗ (∃ r, prngReg c r)) := by
  cases n with
  | zero => exact absurd rfl hz
  | succ n => rfl

/-- The aggregation pipeline's proof data on core `c`, from the contents `V` the region finds. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => oAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = oAt1 V c t := by dsimp only [dat1]

/-- What the region's entry hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hN : cfg1.N = 32 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HA, HB, HC, HD, HE, HS⟩, Hg⟩
  isplitr [Hg]
  · isplitl [HA]; · iexact HA
    isplitl [HB]; · iexact HB
    isplitl [HC]; · iexact HC
    isplitl [HD]; · iexact HD
    isplitl [HE]; · iexact HE
    iexists _; iexact HS
  iexact Hg

end Cert.KernelIdeal.Hand

end
-- ==== Proof.KIVals.lean ====
/-
  The contents of the core's unscoped buffers at each boundary of the program: at launch; after the row-sum region (its
  result array at what the pipeline's write-backs leave, everything else as before); after the three host operations
  between the regions (a reshape of the scale column into a row, the transpose of the weights, a reshape of the bias);
  after the aggregation region (its result array at what its write-backs leave). No item writes an argument array, so each
  argument walks back to the launch contents; the scale column walks back to the row-sum region's result.
-/
import proofs.«167571_j15479062135162_1_alg».proof.Proof.KIDat0
import proofs.«167571_j15479062135162_1_alg».proof.Proof.KIDat1Def
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch (the row-sum region's entry: no host operation comes before it). -/
abbrev W0 : Dev nD → Valuation τ sig (Elt F) := fun c b => m ((c : Dev nD), b)
abbrev V1 : (c : Dev nD) → (b : Ref sig .tc) → Buf (Elt F) ((c : Thread nD τ).loc b) := fun c b => W0 m c b

/-- At the row-sum region's exit. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host operations between the regions (the aggregation region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At the aggregation region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

/-- The features: an input window of the aggregation region, bypassing the row-sum region. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 1).trans (((dat1 (V3 m) c).arrAt_in 1 rfl _).trans (A_eq1 (V3 m) c 1))
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := W2_of_ne m c main_arg0 (by decide)
    _ = m ((c : Thread nD τ).loc main_arg0) := rfl

/-- The adjacency: an input window of both regions. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((dat1 (V3 m) c).arrAt_in 0 rfl _).trans (A_eq1 (V3 m) c 0))
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W2_arr m c 0).trans (((dat0 (V1 m) c).arrAt_in 0 rfl _).trans (A_eq0 (V1 m) c 0))
    _ = m ((c : Thread nD τ).loc main_arg1) := rfl

/-- The weights: read by a host operation only. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := W2_of_ne m c main_arg2 (by decide)
    _ = m ((c : Thread nD τ).loc main_arg2) := rfl

/-- The bias: read by a host operation only. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := W2_of_ne m c main_arg3 (by decide)
    _ = m ((c : Thread nD τ).loc main_arg3) := rfl

/-! ## What the aggregation region finds -/

/-- The result array of the program is the aggregation region's result array after its write-backs. -/
theorem W4_main_v4 (c : Dev nD) : W4 m c (Proc.devRef .tc main_v4) = (dat1 (V3 m) c).arrAt 6 cfg1.N := W4_arr m c 6

/-- The adjacency and the features as the aggregation region finds them are the launch contents. -/
theorem V3_main_arg1 (c : Dev nD) : V3 m c main_arg1 = m ((c : Thread nD τ).loc main_arg1) :=
  (StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W2_arr m c 0).trans (((dat0 (V1 m) c).arrAt_in 0 rfl _).trans (A_eq0 (V1 m) c 0)))
theorem V3_main_arg0 (c : Dev nD) : V3 m c main_arg0 = m ((c : Thread nD τ).loc main_arg0) :=
  (StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_of_ne m c main_arg0 (by decide))

/-- The scale column as the aggregation region finds it is the row-sum region's result array. -/
theorem V3_main_v0 (c : Dev nD) : V3 m c main_v0 = (dat0 (V1 m) c).arrAt 1 cfg0.N :=
  (StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m c 1)

end Cert.KernelIdeal.Hand

end
-- ==== Proof.KIDat1.lean ====
/-
  The aggregation region's body obligation. At each point the body is one of three cases by t % 4. Each of the six input
  windows' staging buffers holds its block whether or not it was fetched there (the row scale is fetched once per row
  block, the weights and the bias once in all: unfetched, the block index did not move), and the body leaves it so. The
  result's staging buffer is idle (handed back as found, not written back) except at the last column block, where it is
  stored whole from the accumulator, the weights and the bias. The carried accumulator goes from what the point before
  left (anything, at the first column block, where it is reset) to this point's update of it.
-/
import proofs.«167571_j15479062135162_1_alg».proof.Proof.KIDat1Def

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's current staging buffer: its block -/

/-- The adjacency window's current staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The feature window's current staging buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The row-scale window's current staging buffer holds its block at every point. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The column-scale window's current staging buffer holds its block at every point. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- The weights window's current staging buffer holds its block at every point. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- The bias window's current staging buffer holds its block at every point. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## What the body must leave in each input window's buffer: its block again -/

theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_in 0 (by decide) t], after1_0]

theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_in 1 (by decide) t], after1_1]

theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_in 2 (by decide) t], after1_2]

theorem leaves1_3 (c : Dev nD) (t : Fin cfg1.N) :
    (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_in 3 (by decide) t], after1_3]

theorem leaves1_4 (c : Dev nD) (t : Fin cfg1.N) :
    (dat1 V c).leavesExact 4 t = owns (c : Thread nD τ) (ms1_4 t) fullShare (iblk1 V c 4 t) := by
  rw [show (dat1 V c).leavesExact 4 t = owns (c : Thread nD τ) (ms1_4 t) fullShare ((dat1 V c).after 4 t) from by
    unfold Dat.leavesExact; rw [liveAt1_in 4 (by decide) t], after1_4]

theorem leaves1_5 (c : Dev nD) (t : Fin cfg1.N) :
    (dat1 V c).leavesExact 5 t = owns (c : Thread nD τ) (ms1_5 t) fullShare (iblk1 V c 5 t) := by
  rw [show (dat1 V c).leavesExact 5 t = owns (c : Thread nD τ) (ms1_5 t) fullShare ((dat1 V c).after 5 t) from by
    unfold Dat.leavesExact; rw [liveAt1_in 5 (by decide) t], after1_5]

/-! ## The body's pre- and postcondition at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-! ## The body, case by case -/

set_option maxHeartbeats 3200000 in
/-- The body at a last column block: the accumulator takes this block's product and the result buffer is stored from it. -/
theorem sound_body1_C (c : Dev nD) (t : Fin cfg1.N) (h1 : t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [leaves1_0, leaves1_1, leaves1_2, leaves1_3, leaves1_4, leaves1_5]
  have h0 : ¬t.val % 4 = 0 := by omega
  have hz : t.val ≠ 0 := by omega
  rw [show (dat1 V c).leavesExact 6 t = owns (c : Thread nD τ) (ms1_6 t) fullShare ((dat1 V c).after 6 t) from by
    unfold Dat.leavesExact; rw [liveAt1_6 t ((hcond1_1 t).mpr h1)], after1_6]
  unfold oAt1
  rw [sAt1_next V c t h0, Phi1_castSucc V c t, PhiS1_pos V c _ _ hz]
  unfold upd1
  iintro ⟨⟨⟨HA, HB, HC, HD, HE, HS⟩, Hg⟩, Ho, ⟨%d0, H0⟩, ⟨%d1, H1⟩, ⟨%d2, H2⟩, ⟨%d3, H3⟩, ⟨%d4, H4⟩, ⟨%d5, H5⟩, ⟨%d6, H6⟩⟩
  iapply (run1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [HA HB HC HD HE HS Hg]
  · isplitr [Hg]
    · isplitl [HA]; · iexact HA
      isplitl [HB]; · iexact HB
      isplitl [HC]; · iexact HC
      isplitl [HD]; · iexact HD
      isplitl [HE]; · iexact HE
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 3200000 in
/-- The body at the very first point: the accumulator, found at anything, is reset and takes this block's product. -/
theorem sound_body1_A0 (c : Dev nD) (t : Fin cfg1.N) (h0 : t.val % 4 = 0) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [leaves1_0, leaves1_1, leaves1_2, leaves1_3, leaves1_4, leaves1_5]
  have h1 : ¬t.val % 4 = 3 := by omega
  rw [Dat.leavesExact_idle (dat1 V c) 6 t (idleAt1_6 t (fun h => h1 ((hcond1_1 t).mp h))) (noFlush1_6 t (fun h => h1 ((hcond1_1 t).mp h)))]
  rw [sAt1_first V c t h0, Phi1_castSucc V c t, PhiS1_zero V c _ _ hz, PhiA1_eq]
  unfold upd1
  iintro ⟨⟨⟨HA, HB, HC, HD, HE, HS⟩, Hg⟩, Ho, ⟨%d0, H0⟩, ⟨%d1, H1⟩, ⟨%d2, H2⟩, ⟨%d3, H3⟩, ⟨%d4, H4⟩, ⟨%d5, H5⟩, ⟨%d6, H6⟩⟩
  iapply (run1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HA HB HC HD HE HS Hg]
  · isplitr [Hg]
    · isplitl [HA]; · iexact HA
      isplitl [HB]; · iexact HB
      isplitl [HC]; · iexact HC
      isplitl [HD]; · iexact HD
      isplitl [HE]; · iexact HE
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 3200000 in
/-- The body at a later row block's first column block: the accumulator is reset and takes this block's product. -/
theorem sound_body1_A (c : Dev nD) (t : Fin cfg1.N) (h0 : t.val % 4 = 0) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [leaves1_0, leaves1_1, leaves1_2, leaves1_3, leaves1_4, leaves1_5]
  have h1 : ¬t.val % 4 = 3 := by omega
  rw [Dat.leavesExact_idle (dat1 V c) 6 t (idleAt1_6 t (fun h => h1 ((hcond1_1 t).mp h))) (noFlush1_6 t (fun h => h1 ((hcond1_1 t).mp h)))]
  rw [sAt1_first V c t h0, Phi1_castSucc V c t, PhiS1_pos V c _ _ hz]
  unfold upd1
  iintro ⟨⟨⟨HA, HB, HC, HD, HE, HS⟩, Hg⟩, Ho, ⟨%d0, H0⟩, ⟨%d1, H1⟩, ⟨%d2, H2⟩, ⟨%d3, H3⟩, ⟨%d4, H4⟩, ⟨%d5, H5⟩, ⟨%d6, H6⟩⟩
  iapply (run1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexists _; iexact HS
  iintro ⟨H0, H1, H2, H3, H4, H5, H6, HS⟩
  isplitl [HA HB HC HD HE HS Hg]
  · isplitr [Hg]
    · isplitl [HA]; · iexact HA
      isplitl [HB]; · iexact HB
      isplitl [HC]; · iexact HC
      isplitl [HD]; · iexact HD
      isplitl [HE]; · iexact HE
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 3200000 in
/-- The body at a middle column block: the accumulator takes this block's product on top of what the point before left. -/
theorem sound_body1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [leaves1_0, leaves1_1, leaves1_2, leaves1_3, leaves1_4, leaves1_5]
  have hz : t.val ≠ 0 := by omega
  rw [Dat.leavesExact_idle (dat1 V c) 6 t (idleAt1_6 t (fun h => h1 ((hcond1_1 t).mp h))) (noFlush1_6 t (fun h => h1 ((hcond1_1 t).mp h)))]
  rw [sAt1_next V c t h0, Phi1_castSucc V c t, PhiS1_pos V c _ _ hz]
  unfold upd1
  iintro ⟨⟨⟨HA, HB, HC, HD, HE, HS⟩, Hg⟩, Ho, ⟨%d0, H0⟩, ⟨%d1, H1⟩, ⟨%d2, H2⟩, ⟨%d3, H3⟩, ⟨%d4, H4⟩, ⟨%d5, H5⟩, ⟨%d6, H6⟩⟩
  iapply (run1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HA HB HC HD HE HS Hg]
  · isplitr [Hg]
    · isplitl [HA]; · iexact HA
      isplitl [HB]; · iexact HB
      isplitl [HC]; · iexact HC
      isplitl [HD]; · iexact HD
      isplitl [HE]; · iexact HE
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- The body at any point, by its case. -/
theorem sound_body1 (c : Dev nD) (t : Fin cfg1.N) :
    bodyPre1 V c t ⊢ wp frame (wpE (defs₀ (F := F)) Variants.none c none) Set.univ (bodyAt1 t) (fun _ => bodyPost1 V c t) := by
  by_cases h1 : t.val % 4 = 3
  · exact sound_body1_C V c t h1
  · by_cases h0 : t.val % 4 = 0
    · by_cases hz : t.val = 0
      · exact sound_body1_A0 V c t h0 hz
      · exact sound_body1_A V c t h0 hz
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIGlue.lean ====
/-
  The program as three segments — the row-sum region, the three host operations, the aggregation region — launched once
  and run in order: every weakly fair execution terminates without a fault, and at the end every unscoped buffer of each
  core holds what the last boundary's valuation says. The arguments' buffers there are the launch contents (the frame);
  the result's buffer is the aggregation region's result array after its write-backs.
-/
import proofs.«167571_j15479062135162_1_alg».proof.Proof.KIVals
import proofs.«167571_j15479062135162_1_alg».proof.Proof.KIDat1
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor

/-- The host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W4 m c) ∗ ∃ r, prngReg c r)

set_option backward.isDefEq.respectTransparency.types false in
/-- Region 0 over the thread state: entered with every unscoped buffer at the boundary's contents, its arrays split out
    and put back at what the pipeline leaves; the generator register goes into the invariant and comes back; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    unfold Pipeline.ΦA at h
    rw [show (pdats m 0 c).Φ 0 = (dat0 (V1 m) c).Φ 0 from rfl]
    iintro ⟨Hp, -, Hr⟩
    iapply h
    isplitl [Hr]; · iexact Hr
    iexact Hp
  hout c := by
    rw [Pipeline.ownSems0_none, show (pdats m 0 c).Φ (Fin.last _) = (dat0 (V1 m) c).Φ (Fin.last cfg0.N) from rfl]
    have h := hout0 (V1 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, its arrays split out
    and put back at what the pipeline leaves; the generator register goes into the invariant and comes back; nothing is
    owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m) c
    unfold Pipeline.ΦA at h
    rw [show (pdats m 1 c).Φ 0 = (dat1 (V3 m) c).Φ 0 from rfl]
    iintro ⟨Hp, -, Hr⟩
    iapply h
    isplitl [Hr]; · iexact Hr
    iexact Hp
  hout c := by
    rw [Pipeline.ownSems0_none, show (pdats m 1 c).Φ (Fin.last _) = (dat1 (V3 m) c).Φ (Fin.last cfg1.N) from rfl]
    have h := hout1 (V3 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three segments in order. -/
abbrev segs : List (Pipeline.Seg (pcfgs (F := F)) adm (pdats m) () defs₀ 𝒱₀ L lv) :=
  [ .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution terminates, nothing faulting, and at the end every
    unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.KernelIdeal.Hand

end
-- ==== Proof.Spec.lean ====
/-
  The graph-convolution layer as one function of its four arguments, over the extended reals.

  deg r   = the sum of row r of the adjacency matrix;
  dinv r  = (deg r + eps)^(-1/2), eps the shared binary constant;
  layer   = for row r and output feature o:  sum over d of ( sum over k of ((drow r * adj r k) * dcol k) * x k d ) * wt d o,  plus bias o;
  G       = the layer with both scale vectors dinv, the weights transposed, the bias as given.

  Two facts join the two programs to G. The kernel accumulates each length-8192 sum as four partial sums over consecutive
  blocks of 2048 (a regrouping of a finite sum in a commutative monoid, valid at the infinities too). And the kernel takes
  the reciprocal square root in one operation where the reference divides one by the square root: the two agree on every
  extended real that is at least zero (at zero both are +infinity, at +infinity both are zero), and differ below zero,
  which is why the statement carries the hypothesis that every row's deg + eps is at least zero.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev Arr2 (n0 n1 : ℕ) : Type := (⟨2, ![n0, n1]⟩ : Shape).Idx → EReal
/-- A rank-1 array of extended reals. -/
abbrev Arr1 (n : ℕ) : Type := (⟨1, ![n]⟩ : Shape).Idx → EReal

/-- The additive constant both programs carry: the binary value its pattern denotes. -/
def eps : EReal := Ideal.ofBits .f32 0x358637BD#32

/-- A node's degree: the sum of its adjacency row. -/
def deg (adj : Arr2 8192 8192) (r : Fin 8192) : EReal := ∑ j : Fin 8192, adj (ix2 r j)

/-- The normalising scale as the kernel takes it: the reciprocal square root of degree plus the constant. -/
def dinv (adj : Arr2 8192 8192) (r : Fin 8192) : EReal := Ideal.rsqrt (deg adj r + eps)

/-- The same scale as the reference takes it: one divided by the square root. -/
def dinvRef (adj : Arr2 8192 8192) (r : Fin 8192) : EReal := Ideal.div 1 (Ideal.sqrt (deg adj r + eps))

/-- Aggregation over the scaled adjacency, then the linear map and the bias, at row `r` and output feature `o`. -/
def layer (adj : Arr2 8192 8192) (x : Arr2 8192 128) (drow dcol : Fin 8192 → EReal) (wt : Fin 128 → Fin 128 → EReal)
    (bias : Fin 128 → EReal) (r : Fin 8192) (o : Fin 128) : EReal :=
  (∑ d : Fin 128, (∑ k : Fin 8192, ((drow r * adj (ix2 r k)) * dcol k) * x (ix2 k d)) * wt d o) + bias o

/-- The layer's result, as a function of the four arguments. -/
def G (x : Arr2 8192 128) (adj : Arr2 8192 8192) (W : Arr2 128 128) (b : Arr1 128) : Arr2 8192 128 :=
  fun i => layer adj x (dinv adj) (dinv adj) (fun d o => W (ix2 o d)) (fun o => b (ix1 o)) (i 0) (i 1)

/-- The same with the reference's form of the scale. -/
def Gref (x : Arr2 8192 128) (adj : Arr2 8192 8192) (W : Arr2 128 128) (b : Arr1 128) : Arr2 8192 128 :=
  fun i => layer adj x (dinvRef adj) (dinvRef adj) (fun d o => W (ix2 o d)) (fun o => b (ix1 o)) (i 0) (i 1)

/-- On an extended real that is at least zero the reciprocal square root is one over the square root. -/
theorem rsqrt_eq_div_sqrt (y : EReal) (h : 0 ≤ y) : Ideal.rsqrt y = Ideal.div 1 (Ideal.sqrt y) := by
  induction y using EReal.rec with
  | bot => exact absurd h (by simp)
  | top =>
    -- at +infinity: the reciprocal square root is 0, and 1 * (+infinity)⁻¹ = 1 * 0 = 0
    simp [Ideal.div, EReal.inv_top]
  | coe r =>
    have hr : 0 ≤ r := by exact_mod_cast h
    have hnl : ¬ r < 0 := not_lt.mpr hr
    rw [Ideal.rsqrt_coe, Ideal.sqrt_coe, if_neg hnl, if_neg hnl]
    by_cases h0 : r = 0
    · -- at zero: the square root is the real 0, and 1 divided by zero is +infinity since 0 < 1
      subst h0
      simp [Ideal.div]
    · -- at a positive real: both sides are the real (√r)⁻¹
      have hpos : 0 < r := lt_of_le_of_ne hr (Ne.symm h0)
      have hs : 0 < Real.sqrt r := Real.sqrt_pos.mpr hpos
      have hne : ((Real.sqrt r : ℝ) : EReal) ≠ 0 := by
        exact_mod_cast hs.ne'
      rw [if_neg h0]
      unfold Ideal.div
      rw [if_neg hne, one_mul, EReal.coe_inv]

theorem dinv_eq_ref (adj : Arr2 8192 8192) (r : Fin 8192) (h : 0 ≤ deg adj r + eps) : dinv adj r = dinvRef adj r :=
  rsqrt_eq_div_sqrt _ h

/-- Where every row's degree plus the constant is at least zero the two forms of the layer are one function. -/
theorem G_eq_Gref (x : Arr2 8192 128) (adj : Arr2 8192 8192) (W : Arr2 128 128) (b : Arr1 128)
    (h : ∀ r : Fin 8192, 0 ≤ deg adj r + eps) : G x adj W b = Gref x adj W b := by
  have e : dinv adj = dinvRef adj := funext fun r => dinv_eq_ref adj r (h r)
  unfold G Gref; rw [e]

/-- A sum over 8192 = 4 * 2048 indices is the sum of its four consecutive blocks of 2048. -/
theorem sum_blocks4 {M : Type*} [AddCommMonoid M] (f : Fin 8192 → M) :
    ∑ k : Fin 8192, f k = ∑ b : Fin 4, ∑ q : Fin 2048, f ⟨2048 * b.val + q.val, by omega⟩ := by
  -- reindex along the bijection (b, q) ↦ q + 2048 * b of Fin 4 × Fin 2048 with Fin (4 * 2048), then split the pair sum
  have e := (Equiv.sum_comp (finProdFinEquiv : Fin 4 × Fin 2048 ≃ Fin (4 * 2048)) (fun k => f k)).symm
  refine e.trans ?_
  rw [Fintype.sum_prod_type]
  refine Finset.sum_congr rfl fun b _ => Finset.sum_congr rfl fun q _ => ?_
  congr 1
  apply Fin.ext
  simp [finProdFinEquiv]
  omega

end Cert.Spec

end
-- ==== Proof.KIVal0.lean ====
/-
  The row-sum region's result array, as a function of the adjacency array it finds.

  The region runs an 8 x 4 grid; point t = 4 i + j handles rows 1024 i to 1024 i + 1023 and columns 2048 j to
  2048 j + 2047. Its accumulator, a 1024 x 1 column, restarts from zero at j = 0 and at every point gains, at local
  row p, the sum of row 1024 i + p over the point's 2048 columns. So after point 4 i + j its row p holds the sum of
  that row over the column blocks 0 to j (induction on the point), and at j = 3 the four block sums regroup into the
  row's whole sum over 8192 columns, its degree. There the result buffer takes the reciprocal square root of
  accumulator plus constant and is written back as rows 1024 i to 1024 i + 1023 of the result; the eight written
  blocks tile the 8192 rows, so the array ends holding every row's scale.
-/
import proofs.«167571_j15479062135162_1_alg».proof.Proof.KIAcc
import proofs.«167571_j15479062135162_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace RowSum

/-! ## The three payloads at a row

Each buffer is a 1024 x 1 column; its entry for local row p is read at the index (p, 0). -/

/-- The reset value of the accumulator is zero at every row. -/
theorem acc_reset_apply (p : Fin 1024) : (k0_pay1 (F := Ideal)) (ix2 p (0 : Fin 1)) = 0 := by
  unfold k0_pay1
  refine (congrFun (shapeCast_self _ _) _).trans ?_
  exact Ideal.ofBits_zero_f32

/-- The lane reduction's source index over row p with lane q inserted is (p, q). -/
theorem lane_lift (p : Fin 1024) (q : Fin 2048) :
    reduces_S1024x2048_S1024.lift (ix1 p) q = (ix2 p q : S1024x2048.Idx) := by
  funext c
  match c with
  | ⟨0, _⟩ => rfl
  | ⟨1, _⟩ => rfl

/-- One update adds to the accumulator's row p the sum of row p of the 1024 x 2048 block. -/
theorem acc_update_apply (a : Vec Ideal S1024x1 .f32) (x : Vec Ideal S1024x2048 .f32) (p : Fin 1024) :
    k0_pay2 a x (ix2 p (0 : Fin 1)) = a (ix2 p (0 : Fin 1)) + ∑ q : Fin 2048, x (ix2 p q) := by
  unfold k0_pay2
  refine (congrFun (shapeCast_self _ _) _).trans ?_
  refine (addf_apply _ _ _).trans ?_
  refine congrArg (a (ix2 p (0 : Fin 1)) + ·) ?_
  -- the row sums, a vector of 1024, viewed as a 1024 x 1 column: (p, 0) has the row-major position p
  refine (shapeCast_apply _ _ (ix2 p (0 : Fin 1)) (ix1 p) ?_).trans ?_
  · rw [Shape.rowMajor_val_one, Shape.rowMajor_val_two]
    show p.val = p.val * 1 + 0
    omega
  · -- the reduction over the lane axis is the sum over the 2048 lanes of row p
    refine (Ideal.multiReduction_add_single x 0x00000000#32 reduces_S1024x2048_S1024 (.inl rfl) rfl (ix1 p)).trans ?_
    exact Finset.sum_congr rfl fun q _ => congrArg x (lane_lift p q)

/-- The stored result at row p is the reciprocal square root of the accumulator's row p plus the constant. -/
theorem result_apply (a : Vec Ideal S1024x1 .f32) (p : Fin 1024) :
    k0_pay3 a (ix2 p (0 : Fin 1)) = Ideal.rsqrt (a (ix2 p (0 : Fin 1)) + Cert.Spec.eps) := rfl

/-! ## The blocks a point reads and writes

Point t = 4 i + j of the 8 x 4 grid reads the 1024 x 2048 block of the adjacency array at block index (i, j) and owns
the 1024 x 1 block of the result at block index (i, 0). -/

theorem adj_index : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)

theorem out_index : ∀ t : Fin cfg0.N, win0_1.index t (0 : Fin 2) = t.val / 4 ∧ win0_1.index t (1 : Fin 2) = 0 :=
  (by decide +kernel : ∀ t : Fin grid0.N, win0_1.index t (0 : Fin 2) = t.val / 4 ∧ win0_1.index t (1 : Fin 2) = 0)

/-- The adjacency array's entry at natural coordinates (zero outside the array). -/
def adjAt (c : Dev nD) (r k : ℕ) : EReal :=
  if h : r < 8192 ∧ k < 8192 then (V c main_arg1 : Cert.Spec.Arr2 8192 8192) (ix2 ⟨r, h.1⟩ ⟨k, h.2⟩) else 0

/-- The sum of row r of the adjacency array over its column block b (columns 2048 b to 2048 b + 2047). -/
def blockSum (c : Dev nD) (r b : ℕ) : EReal := ∑ q : Fin 2048, adjAt V c r (2048 * b + q.val)

/-- Entry (p, q) of the block point t = 4 i + j reads is the array's entry (1024 i + p, 2048 j + q): a block's
    coordinate is block index times block size plus the coordinate inside the block. -/
theorem adj_block_apply (c : Dev nD) (t : Fin cfg0.N) (p : Fin 1024) (q : Fin 2048) :
    (iblk0 V c 0 t : Vec Ideal S1024x2048 .f32) (ix2 p q)
      = adjAt V c (1024 * (t.val / 4) + p.val) (2048 * (t.val % 4) + q.val) := by
  have hN : cfg0.N = 32 := N_0
  have ht := t.isLt
  have hp := p.isLt
  have hq := q.isLt
  obtain ⟨e0, e1⟩ := adj_index t
  unfold adjAt
  rw [dif_pos ⟨by omega, by omega⟩]
  unfold iblk0
  rw [View.read_apply]
  show V c main_arg1 _ = V c main_arg1 _
  congr 1
  funext a
  apply Fin.ext
  match a with
  | ⟨0, _⟩ =>
    show win0_0.index t (0 : Fin 2) * 1024 + 1 * p.val = 1024 * (t.val / 4) + p.val
    rw [e0]; omega
  | ⟨1, _⟩ =>
    show win0_0.index t (1 : Fin 2) * 2048 + 1 * q.val = 2048 * (t.val % 4) + q.val
    rw [e1]; omega

/-- One point's update at row p, with the block read off the array: the accumulator's row p gains the sum of row
    1024 i + p over column block j. -/
theorem step_apply (c : Dev nD) (t : Fin cfg0.N) (a : Vec Ideal S1024x1 .f32) (p : Fin 1024) :
    k0_pay2 a (iblk0 V c 0 t) (ix2 p (0 : Fin 1))
      = a (ix2 p (0 : Fin 1)) + blockSum V c (1024 * (t.val / 4) + p.val) (t.val % 4) :=
  (acc_update_apply a (iblk0 V c 0 t) p).trans
    (congrArg (a (ix2 p (0 : Fin 1)) + ·) (Finset.sum_congr rfl fun q _ => adj_block_apply V c t p q))

/-! ## The accumulator after each point, and the result at the last column block -/

/-- After point n = 4 i + j the accumulator's row p holds the sum of row 1024 i + p over the column blocks 0 to j:
    it restarts from zero at j = 0 and gains one column block's sum at every point. -/
theorem acc_apply (c : Dev nD) (p : Fin 1024) : ∀ (n : ℕ) (hn : n < cfg0.N),
    sAt0 V c n hn (ix2 p (0 : Fin 1))
      = ∑ b ∈ Finset.range (n % 4 + 1), blockSum V c (1024 * (n / 4) + p.val) b := by
  intro n
  induction n with
  | zero =>
    intro hn
    refine (congrFun (sAt0_first V c ⟨0, hn⟩ rfl) _).trans ?_
    refine (step_apply V c ⟨0, hn⟩ (k0_pay1 (F := Ideal)) p).trans ?_
    rw [acc_reset_apply, zero_add]
    exact (Finset.sum_range_one _).symm
  | succ n ih =>
    intro hn
    by_cases h : (n + 1) % 4 = 0
    · refine (congrFun (sAt0_first V c ⟨n + 1, hn⟩ h) _).trans ?_
      refine (step_apply V c ⟨n + 1, hn⟩ (k0_pay1 (F := Ideal)) p).trans ?_
      rw [acc_reset_apply, zero_add]
      show blockSum V c (1024 * ((n + 1) / 4) + p.val) ((n + 1) % 4) = _
      rw [h]
      exact (Finset.sum_range_one _).symm
    · refine (congrFun (sAt0_next V c ⟨n + 1, hn⟩ h) _).trans ?_
      refine (step_apply V c ⟨n + 1, hn⟩ _ p).trans ?_
      show sAt0 V c n _ (ix2 p (0 : Fin 1)) + blockSum V c (1024 * ((n + 1) / 4) + p.val) ((n + 1) % 4) = _
      rw [ih]
      have e1 : (n + 1) / 4 = n / 4 := by omega
      have e2 : (n + 1) % 4 = n % 4 + 1 := by omega
      rw [e1, e2]
      exact (Finset.sum_range_succ _ _).symm

/-- A row's degree is the sum of its four column-block sums: the sum over 8192 columns regrouped into four
    consecutive blocks of 2048. -/
theorem deg_blocks (c : Dev nD) (r : ℕ) (hr : r < 8192) :
    Cert.Spec.deg (V c main_arg1) ⟨r, hr⟩ = ∑ b ∈ Finset.range 4, blockSum V c r b := by
  rw [Finset.sum_range]
  unfold Cert.Spec.deg
  refine (Cert.Spec.sum_blocks4 (M := EReal) (fun k => (V c main_arg1 : Cert.Spec.Arr2 8192 8192) (ix2 ⟨r, hr⟩ k))).trans ?_
  refine Finset.sum_congr rfl fun b _ => ?_
  unfold blockSum
  refine Finset.sum_congr rfl fun q _ => ?_
  unfold adjAt
  have hb := b.isLt
  have hq := q.isLt
  rw [dif_pos ⟨hr, by omega⟩]

/-- At the last column block (t = 4 i + 3) the result buffer's row p is the reciprocal square root of the degree of
    row 1024 i + p plus the constant. -/
theorem out_apply (c : Dev nD) (t : Fin cfg0.N) (h3 : t.val % 4 = 3) (p : Fin 1024)
    (hr : 1024 * (t.val / 4) + p.val < 8192) :
    oAt0 V c t (ix2 p (0 : Fin 1)) = Cert.Spec.dinv (V c main_arg1) ⟨1024 * (t.val / 4) + p.val, hr⟩ := by
  unfold oAt0
  refine (result_apply _ p).trans ?_
  rw [acc_apply V c p t.val t.isLt, h3]
  unfold Cert.Spec.dinv
  rw [deg_blocks V c _ hr]

/-! ## From the blocks to the array

The result is written back at the points t = 4 i + 3 only, each writing rows 1024 i to 1024 i + 1023; these eight
blocks tile the 8192 rows, so the array ends holding the scale of every row. -/

/-- What a writing point t = 4 i + 3 writes back is its block of the array of row scales: local row p is row
    1024 i + p. -/
theorem flushed_eq (c : Dev nD) (dat : Dat τ (Elt Ideal) Unit ℕ (UR sig nD τ) ℕ cfg0 c)
    (hafter : ∀ t, dat.after 1 t = oAt0 V c t) (t : Fin cfg0.N) (hf : (cfg0.win 1).flush t = true) :
    dat.flushed 1 t
      = ((cfg0.win 1).blk t).view.read (Elt Ideal) (fun y : S8192x1.Idx => Cert.Spec.dinv (V c main_arg1) (y 0)) := by
  have hN : cfg0.N = 32 := N_0
  have ht := t.isLt
  have h3 : t.val % 4 = 3 := (flush0_1 t).mp hf
  obtain ⟨e0, e1⟩ := out_index t
  show (cfg0.win 1).cut (grid0.coords t) (dat.after 1 t) = _
  rw [hafter]
  funext y
  have hy0 : (y 0).val < 1024 := (y 0).isLt
  have hy1 : (y 1).val < 1 := (y 1).isLt
  rw [View.read_apply]
  show oAt0 V c t ((cfg0.win 1).xinj (grid0.coords t) y)
    = Cert.Spec.dinv (V c main_arg1) ((((cfg0.win 1).blk t).view.emb y) 0)
  have hx : (cfg0.win 1).xinj (grid0.coords t) y = ix2 (⟨(y 0).val, hy0⟩ : Fin 1024) (0 : Fin 1) := by
    funext a
    apply Fin.ext
    match a with
    | ⟨0, _⟩ => rfl
    | ⟨1, _⟩ => show (y 1).val = 0; omega
  refine (congrArg (oAt0 V c t) hx).trans ?_
  refine (out_apply V c t h3 ⟨(y 0).val, hy0⟩ (by show 1024 * (t.val / 4) + (y 0).val < 8192; omega)).trans ?_
  refine congrArg (Cert.Spec.dinv (V c main_arg1)) (Fin.ext ?_)
  show 1024 * (t.val / 4) + (y 0).val = win0_1.index t (0 : Fin 2) * 1024 + 1 * (y 0).val
  rw [e0]; omega

/-- Every row r lies in the block of the writing point 4 (r / 1024) + 3. -/
theorem covered (i : S8192x1.Idx) :
    ∃ t : Fin cfg0.N, (cfg0.win 1).flush t = true ∧ i ∈ ((cfg0.win 1).blk t).view.set := by
  have hN : cfg0.N = 32 := N_0
  have h0 : (i 0).val < 8192 := (i 0).isLt
  have h1 : (i 1).val < 1 := (i 1).isLt
  obtain ⟨t, htv⟩ : ∃ t : Fin cfg0.N, t.val = 4 * ((i 0).val / 1024) + 3 := ⟨⟨_, by omega⟩, rfl⟩
  obtain ⟨e0, e1⟩ := out_index t
  refine ⟨t, (flush0_1 t).mpr (by omega), ?_⟩
  show i ∈ ((View.whole main_v0).slice (win0_1.rect t)).set
  rw [View.set_slice_whole, Rect.mem_set_unit]
  intro a
  match a with
  | ⟨0, _⟩ =>
    show win0_1.index t (0 : Fin 2) * 1024 ≤ (i 0).val ∧ (i 0).val < win0_1.index t (0 : Fin 2) * 1024 + 1024
    rw [e0]; omega
  | ⟨1, _⟩ =>
    show win0_1.index t (1 : Fin 2) * 1 ≤ (i 1).val ∧ (i 1).val < win0_1.index t (1 : Fin 2) * 1 + 1
    rw [e1]; omega

end RowSum

/-- After the row-sum region its result array holds, at row r, the reciprocal square root of that row's degree plus the constant. -/
theorem arr0_final (c : Dev nD) (dat : Dat τ (Elt Ideal) Unit ℕ (UR sig nD τ) ℕ cfg0 c)
    (hA : ∀ w, dat.A w = V c (Pipeline.arrRef spec0 w)) (hafter : ∀ t, dat.after 1 t = oAt0 V c t) :
    dat.arrAt 1 cfg0.N = fun y : S8192x1.Idx => Cert.Spec.dinv (V c main_arg1) (y 0) :=
  dat.arrAt_eq_of_cover 1 (fun y : S8192x1.Idx => Cert.Spec.dinv (V c main_arg1) (y 0))
    (RowSum.flushed_eq V c dat hafter) RowSum.covered

end Cert.KernelIdeal.Hand

end
-- ==== Proof.KIVal1.lean ====
/-
  The aggregation kernel's result array, as one function of the arrays the region finds.

  Point t = 4 i + k of the 8 x 4 grid handles row block i (1024 rows) and column block k (2048 columns). At every point
  the body adds to a 1024 x 128 accumulator, at entry (p, d), the sum over the block's columns q of
      ((row scale of p * adjacency (p, q)) * column scale of q) * feature (q, d),
  having zeroed the accumulator first when k = 0; at k = 3 it stores, at entry (p, o), the sum over the 128 features d of
  accumulator (p, d) * weight (d, o), plus the bias of o.

  Read through the windows, entry (p, q) of a block is the array's entry at block index times block size plus (p, q). So
  after point 4 i + k the accumulator at (p, d) is the sum, over column blocks 0 to k, of the block sums of the summand
  of row r = 1024 i + p; after k = 3 that is the whole sum over the 8192 columns (a finite sum regrouped into four
  consecutive blocks), and the stored entry is the layer at (r, o). No product is reassociated and nothing is
  distributed: the layer multiplies in the body's own order. The result's blocks at the points 4 i + 3 tile the array
  (row r lies in the block of point 4 (r / 1024) + 3), so the array ends holding the layer everywhere.
-/
import proofs.«167571_j15479062135162_1_alg».proof.Proof.KIAcc
import proofs.«167571_j15479062135162_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace Aggregate

/-! ## The two products of the body, read at an entry -/

/-- The aggregation product's left operand index at an entry of row p: its row coordinate is p. -/
theorem lhs_agg_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
/-- Its column coordinate is the contraction index. -/
theorem lhs_agg_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
/-- The right operand's row coordinate is the contraction index. -/
theorem rhs_agg_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
/-- Its column coordinate is the entry's feature. -/
theorem rhs_agg_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The aggregation product into the zero block, at row p and feature d: the sum over the block's 2048 columns. -/
theorem agg_apply (L : FVec Ideal S1024x2048 .bf16) (R : FVec Ideal S2048x128 .bf16) (p : Fin 1024) (d : Fin 128) :
    matmul dot_S1024x2048_S2048x128_S1024x128_1_0_0_1_n_n none L R (constant (F := Ideal) S1024x128 .f32 0x00000000#32) (ix2 p d)
      = ∑ q : Fin 2048, L (ix2 p q) * R (ix2 q d) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p d) ((contrEquiv1 dot_S1024x2048_S2048x128_S1024x128_1_0_0_1_n_n 2048 rfl rfl).symm k) = ix2 p k := funext fun a => Fin.ext (by
    match a with
    | ⟨0, _⟩ => exact lhs_agg_0 _ _
    | ⟨1, _⟩ => exact (lhs_agg_1 _ _).trans hk)
  have er : dot_S1024x2048_S2048x128_S1024x128_1_0_0_1_n_n.rhsIdx (ix2 p d) ((contrEquiv1 dot_S1024x2048_S2048x128_S1024x128_1_0_0_1_n_n 2048 rfl rfl).symm k) = ix2 k d := funext fun a => Fin.ext (by
    match a with
    | ⟨0, _⟩ => exact (rhs_agg_0 _ _).trans hk
    | ⟨1, _⟩ => exact rhs_agg_1 _ _)
  rw [el, er]

/-- The linear map's left operand index at an entry of row p: its row coordinate is p. -/
theorem lhs_lin_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- Its column coordinate is the contraction index. -/
theorem lhs_lin_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- The right operand's row coordinate is the contraction index. -/
theorem rhs_lin_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- Its column coordinate is the entry's output feature. -/
theorem rhs_lin_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The linear map into the zero block, at row p and output feature o: the sum over the 128 features. -/
theorem lin_apply (L : FVec Ideal S1024x128 .bf16) (R : FVec Ideal S128x128 .bf16) (p : Fin 1024) (o : Fin 128) :
    matmul dot_S1024x128_S128x128_S1024x128_1_0_0_1_n_n none L R (constant (F := Ideal) S1024x128 .f32 0x00000000#32) (ix2 p o)
      = ∑ d : Fin 128, L (ix2 p d) * R (ix2 d o) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p o) ((contrEquiv1 dot_S1024x128_S128x128_S1024x128_1_0_0_1_n_n 128 rfl rfl).symm k) = ix2 p k := funext fun a => Fin.ext (by
    match a with
    | ⟨0, _⟩ => exact lhs_lin_0 _ _
    | ⟨1, _⟩ => exact (lhs_lin_1 _ _).trans hk)
  have er : dot_S1024x128_S128x128_S1024x128_1_0_0_1_n_n.rhsIdx (ix2 p o) ((contrEquiv1 dot_S1024x128_S128x128_S1024x128_1_0_0_1_n_n 128 rfl rfl).symm k) = ix2 k o := funext fun a => Fin.ext (by
    match a with
    | ⟨0, _⟩ => exact (rhs_lin_0 _ _).trans hk
    | ⟨1, _⟩ => exact rhs_lin_1 _ _)
  rw [el, er]

/-! ## The broadcasts of the two scale vectors and of the bias row, read at an entry -/

/-- A column of 1024 row scales spread over 2048 columns reads, at (p, q), the scale of row p. -/
theorem bcast_col_apply (v : FVec Ideal S1024x1 .f32) (p : Fin 1024) (q : Fin 2048) :
    broadcastTo S1024x2048 v broadcasts_S1024x1_S1024x2048 (ix2 p q) = v (ix2 p 0) := by
  refine broadcastTo_apply v broadcasts_S1024x1_S1024x2048 (ix2 p q) (ix2 p 0) fun a => ?_
  match a with
  | ⟨0, _⟩ => show p.val = if (1024 : Nat) = 1 then 0 else p.val; rw [if_neg (by decide)]
  | ⟨1, _⟩ => show 0 = if (1 : Nat) = 1 then 0 else q.val; rw [if_pos rfl]

/-- A row of 2048 column scales spread over 1024 rows reads, at (p, q), the scale of column q. -/
theorem bcast_row_apply (v : FVec Ideal S1x2048 .f32) (p : Fin 1024) (q : Fin 2048) :
    broadcastTo S1024x2048 v broadcasts_S1x2048_S1024x2048 (ix2 p q) = v (ix2 0 q) := by
  refine broadcastTo_apply v broadcasts_S1x2048_S1024x2048 (ix2 p q) (ix2 0 q) fun a => ?_
  match a with
  | ⟨0, _⟩ => show 0 = if (1 : Nat) = 1 then 0 else p.val; rw [if_pos rfl]
  | ⟨1, _⟩ => show q.val = if (2048 : Nat) = 1 then 0 else q.val; rw [if_neg (by decide)]

/-- The bias row spread over 1024 rows reads, at (p, o), the bias of output feature o. -/
theorem bcast_bias_apply (v : FVec Ideal S1x128 .f32) (p : Fin 1024) (o : Fin 128) :
    broadcastTo S1024x128 v broadcasts_S1x128_S1024x128 (ix2 p o) = v (ix2 0 o) := by
  refine broadcastTo_apply v broadcasts_S1x128_S1024x128 (ix2 p o) (ix2 0 o) fun a => ?_
  match a with
  | ⟨0, _⟩ => show 0 = if (1 : Nat) = 1 then 0 else p.val; rw [if_pos rfl]
  | ⟨1, _⟩ => show o.val = if (128 : Nat) = 1 then 0 else o.val; rw [if_neg (by decide)]

/-! ## The three payloads at an entry -/

/-- The reset block is zero everywhere. -/
theorem pay1_apply (p : Fin 1024) (d : Fin 128) : (k1_pay1 (F := Ideal)) (ix2 p d) = 0 := by
  unfold k1_pay1
  rw [shapeCast_self]
  exact Ideal.ofBits_zero_f32

/-- One point's update at (p, d): the accumulator there plus the sum, over the block's 2048 columns q, of the
    row scale of p times the adjacency entry (p, q) times the column scale of q, times the feature entry (q, d). -/
theorem pay2_apply (a : Vec Ideal S1024x2048 .f32) (dr : Vec Ideal S1024x1 .f32) (dc : Vec Ideal S1x2048 .f32)
    (x : Vec Ideal S2048x128 .f32) (acc : Vec Ideal S1024x128 .f32) (p : Fin 1024) (d : Fin 128) :
    k1_pay2 a dr dc x acc (ix2 p d)
      = acc (ix2 p d) + ∑ q : Fin 2048, ((dr (ix2 p 0) * a (ix2 p q)) * dc (ix2 0 q)) * x (ix2 q d) := by
  unfold k1_pay2
  simp only [shapeCast_self]
  rw [addf_apply, agg_apply]
  refine congrArg (acc (ix2 p d) + ·) (Finset.sum_congr rfl fun q _ => ?_)
  rw [truncf_apply, truncf_apply, mulf_apply, mulf_apply, bcast_col_apply, bcast_row_apply]

/-- The finishing step at (p, o): the sum over the 128 features d of the accumulator at (p, d) times the weight
    (d, o), plus the bias of o. -/
theorem pay3_apply (acc : Vec Ideal S1024x128 .f32) (w : Vec Ideal S128x128 .f32) (b : Vec Ideal S1x128 .f32)
    (p : Fin 1024) (o : Fin 128) :
    k1_pay3 acc w b (ix2 p o) = (∑ d : Fin 128, acc (ix2 p d) * w (ix2 d o)) + b (ix2 0 o) := by
  unfold k1_pay3
  simp only [shapeCast_self]
  rw [addf_apply, lin_apply, bcast_bias_apply]
  refine congrArg (· + b (ix2 0 o)) (Finset.sum_congr rfl fun d _ => ?_)
  rw [truncf_apply, truncf_apply]

/-! ## The blocks: where each window's block at point t = 4 i + k sits in its array -/

/-- The windows' index maps, decided once over the 32 points: row block t / 4, column block t % 4. -/
theorem idx1_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = t.val % 4
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val / 4 ∧ win1_6.index t (1 : Fin 2) = 0 :=
  (by decide +kernel : ∀ t : Fin grid1.N, _)

/-- The adjacency block at point t, entry (p, q): the adjacency at row 1024 (t / 4) + p, column 2048 (t % 4) + q. -/
theorem blk_adj_apply (c : Dev nD) (t : Fin cfg1.N) (p : Fin 1024) (q : Fin 2048) (r k : Fin 8192)
    (hr : r.val = 1024 * (t.val / 4) + p.val) (hk : k.val = 2048 * (t.val % 4) + q.val) :
    (iblk1 V c 0 t : Vec Ideal S1024x2048 .f32) (ix2 p q) = (V c main_arg1 : S8192x8192.Idx → EReal) (ix2 r k) := by
  obtain ⟨e0, e1, -⟩ := idx1_facts t
  unfold iblk1
  rw [View.read_apply]
  show (V c main_arg1 : S8192x8192.Idx → EReal) _ = _
  congr 1
  funext a
  apply Fin.ext
  match a with
  | ⟨0, _⟩ => show win1_0.index t (0 : Fin 2) * 1024 + 1 * p.val = r.val; omega
  | ⟨1, _⟩ => show win1_0.index t (1 : Fin 2) * 2048 + 1 * q.val = k.val; omega

/-- The feature block at point t, entry (q, d): the features at row 2048 (t % 4) + q, column d. -/
theorem blk_feat_apply (c : Dev nD) (t : Fin cfg1.N) (q : Fin 2048) (d : Fin 128) (k : Fin 8192)
    (hk : k.val = 2048 * (t.val % 4) + q.val) :
    (iblk1 V c 1 t : Vec Ideal S2048x128 .f32) (ix2 q d) = (V c main_arg0 : S8192x128.Idx → EReal) (ix2 k d) := by
  obtain ⟨-, -, e0, e1, -⟩ := idx1_facts t
  unfold iblk1
  rw [View.read_apply]
  show (V c main_arg0 : S8192x128.Idx → EReal) _ = _
  congr 1
  funext a
  apply Fin.ext
  match a with
  | ⟨0, _⟩ => show win1_1.index t (0 : Fin 2) * 2048 + 1 * q.val = k.val; omega
  | ⟨1, _⟩ => show win1_1.index t (1 : Fin 2) * 128 + 1 * d.val = d.val; omega

/-- The row-scale block at point t, entry (p, 0): the row scale of row 1024 (t / 4) + p. -/
theorem blk_drow_apply (c : Dev nD) (t : Fin cfg1.N) (p : Fin 1024) (r : Fin 8192)
    (hr : r.val = 1024 * (t.val / 4) + p.val) :
    (iblk1 V c 2 t : Vec Ideal S1024x1 .f32) (ix2 p 0) = (V c main_v0 : S8192x1.Idx → EReal) (ix2 r 0) := by
  obtain ⟨-, -, -, -, e0, e1, -⟩ := idx1_facts t
  unfold iblk1
  rw [View.read_apply]
  show (V c main_v0 : S8192x1.Idx → EReal) _ = _
  congr 1
  funext a
  apply Fin.ext
  match a with
  | ⟨0, _⟩ => show win1_2.index t (0 : Fin 2) * 1024 + 1 * p.val = r.val; omega
  | ⟨1, _⟩ => show win1_2.index t (1 : Fin 2) * 1 + 1 * 0 = 0; omega

/-- The column-scale block at point t, entry (0, q): the column scale of column 2048 (t % 4) + q. -/
theorem blk_dcol_apply (c : Dev nD) (t : Fin cfg1.N) (q : Fin 2048) (k : Fin 8192)
    (hk : k.val = 2048 * (t.val % 4) + q.val) :
    (iblk1 V c 3 t : Vec Ideal S1x2048 .f32) (ix2 0 q) = (V c main_v1 : S1x8192.Idx → EReal) (ix2 0 k) := by
  obtain ⟨-, -, -, -, -, -, e0, e1, -⟩ := idx1_facts t
  unfold iblk1
  rw [View.read_apply]
  show (V c main_v1 : S1x8192.Idx → EReal) _ = _
  congr 1
  funext a
  apply Fin.ext
  match a with
  | ⟨0, _⟩ => show win1_3.index t (0 : Fin 2) * 1 + 1 * 0 = 0; omega
  | ⟨1, _⟩ => show win1_3.index t (1 : Fin 2) * 2048 + 1 * q.val = k.val; omega

/-- The weights window is its whole array at every point. -/
theorem blk_wt_apply (c : Dev nD) (t : Fin cfg1.N) (d o : Fin 128) :
    (iblk1 V c 4 t : Vec Ideal S128x128 .f32) (ix2 d o) = (V c main_v2 : S128x128.Idx → EReal) (ix2 d o) := by
  obtain ⟨-, -, -, -, -, -, -, -, e0, e1, -⟩ := idx1_facts t
  unfold iblk1
  rw [View.read_apply]
  show (V c main_v2 : S128x128.Idx → EReal) _ = _
  congr 1
  funext a
  apply Fin.ext
  match a with
  | ⟨0, _⟩ => show win1_4.index t (0 : Fin 2) * 128 + 1 * d.val = d.val; omega
  | ⟨1, _⟩ => show win1_4.index t (1 : Fin 2) * 128 + 1 * o.val = o.val; omega

/-- The bias window is its whole array at every point. -/
theorem blk_bias_apply (c : Dev nD) (t : Fin cfg1.N) (o : Fin 128) :
    (iblk1 V c 5 t : Vec Ideal S1x128 .f32) (ix2 0 o) = (V c main_v3 : S1x128.Idx → EReal) (ix2 0 o) := by
  obtain ⟨-, -, -, -, -, -, -, -, -, -, e0, e1, -⟩ := idx1_facts t
  unfold iblk1
  rw [View.read_apply]
  show (V c main_v3 : S1x128.Idx → EReal) _ = _
  congr 1
  funext a
  apply Fin.ext
  match a with
  | ⟨0, _⟩ => show win1_5.index t (0 : Fin 2) * 1 + 1 * 0 = 0; omega
  | ⟨1, _⟩ => show win1_5.index t (1 : Fin 2) * 128 + 1 * o.val = o.val; omega

/-! ## One point's update, and the accumulator after each point -/

/-- The aggregation's summand at row r, feature d and column k, with the factors in the order the body multiplies
    them: (row scale of r times adjacency (r, k)) times column scale of k, times feature (k, d). -/
def summand (adj : Cert.Spec.Arr2 8192 8192) (x : Cert.Spec.Arr2 8192 128) (drow dcol : Fin 8192 → EReal)
    (r : Fin 8192) (d : Fin 128) (k : Fin 8192) : EReal :=
  ((drow r * adj (ix2 r k)) * dcol k) * x (ix2 k d)

/-- The summand over the arrays the region finds. -/
def term (c : Dev nD) (r : Fin 8192) (d : Fin 128) (k : Fin 8192) : EReal :=
  summand (V c main_arg1) (V c main_arg0) (fun r => V c main_v0 (ix2 r 0)) (fun k => V c main_v1 (ix2 0 k)) r d k

/-- The sum of the summands over the 2048 columns of column block b (a column past the array, which never occurs for
    b below 4, counts as zero). -/
def bsum (c : Dev nD) (r : Fin 8192) (d : Fin 128) (b : ℕ) : EReal :=
  ∑ q : Fin 2048, if h : 2048 * b + q.val < 8192 then term V c r d ⟨2048 * b + q.val, h⟩ else 0

/-- One point's update of an accumulator, at entry (p, d) of row block t / 4: the accumulator there plus the sum of the
    summands of row 1024 (t / 4) + p over column block t % 4. -/
theorem upd1_apply (c : Dev nD) (t : Fin cfg1.N) (acc : Vec Ideal S1024x128 .f32) (p : Fin 1024) (d : Fin 128)
    (r : Fin 8192) (hr : r.val = 1024 * (t.val / 4) + p.val) :
    upd1 V c t acc (ix2 p d) = acc (ix2 p d) + bsum V c r d (t.val % 4) := by
  unfold upd1
  refine (pay2_apply _ _ _ _ acc p d).trans ?_
  refine congrArg (acc (ix2 p d) + ·) (Finset.sum_congr rfl fun q _ => ?_)
  have h : 2048 * (t.val % 4) + q.val < 8192 := by have := q.isLt; omega
  rw [dif_pos h]
  unfold term summand
  rw [blk_adj_apply V c t p q r ⟨2048 * (t.val % 4) + q.val, h⟩ hr rfl,
    blk_feat_apply V c t q d ⟨2048 * (t.val % 4) + q.val, h⟩ rfl,
    blk_drow_apply V c t p r hr,
    blk_dcol_apply V c t q ⟨2048 * (t.val % 4) + q.val, h⟩ rfl]

/-- The accumulator after point n, at entry (p, d): the sum of the summands of row 1024 (n / 4) + p over the column
    blocks 0 to n % 4 — by induction on the point, restarting at each first column block. -/
theorem acc_apply (c : Dev nD) : ∀ (n : ℕ) (hn : n < cfg1.N) (p : Fin 1024) (d : Fin 128) (r : Fin 8192),
    r.val = 1024 * (n / 4) + p.val → sAt1 V c n hn (ix2 p d) = ∑ b ∈ Finset.range (n % 4 + 1), bsum V c r d b
  | 0, hn, p, d, r, hr => by
    refine (congrFun (sAt1_first V c ⟨0, hn⟩ rfl) (ix2 p d)).trans ?_
    rw [upd1_apply V c ⟨0, hn⟩ _ p d r hr, pay1_apply, zero_add]
    exact (Finset.sum_range_one _).symm
  | n + 1, hn, p, d, r, hr => by
    by_cases h : (n + 1) % 4 = 0
    · refine (congrFun (sAt1_first V c ⟨n + 1, hn⟩ h) (ix2 p d)).trans ?_
      rw [upd1_apply V c ⟨n + 1, hn⟩ _ p d r hr, pay1_apply, zero_add]
      show bsum V c r d ((n + 1) % 4) = _
      rw [h]
      exact (Finset.sum_range_one _).symm
    · refine (congrFun (sAt1_next V c ⟨n + 1, hn⟩ h) (ix2 p d)).trans ?_
      rw [upd1_apply V c ⟨n + 1, hn⟩ _ p d r hr]
      show sAt1 V c n _ (ix2 p d) + bsum V c r d ((n + 1) % 4) = _
      rw [acc_apply c n _ p d r (by rw [hr]; omega), show (n + 1) % 4 = n % 4 + 1 by omega]
      exact (Finset.sum_range_succ _ _).symm

/-- The four column blocks together are the whole sum over the 8192 columns. -/
theorem sum_bsum (c : Dev nD) (r : Fin 8192) (d : Fin 128) :
    ∑ b ∈ Finset.range 4, bsum V c r d b = ∑ k : Fin 8192, term V c r d k := by
  rw [Cert.Spec.sum_blocks4 (term V c r d), Finset.sum_range]
  refine Finset.sum_congr rfl fun b _ => Finset.sum_congr rfl fun q _ => ?_
  exact dif_pos (by have := b.isLt; have := q.isLt; omega)

/-! ## The result block at a finishing point, and the whole array -/

/-- The layer of the arrays the region finds, as one function of the result array's index. -/
def G1 (c : Dev nD) : S8192x128.Idx → EReal := fun i =>
  Cert.Spec.layer (V c main_arg1) (V c main_arg0) (fun r => V c main_v0 (ix2 r 0)) (fun k => V c main_v1 (ix2 0 k))
    (fun d o => V c main_v2 (ix2 d o)) (fun o => V c main_v3 (ix2 0 o)) (i 0) (i 1)

/-- What a last column block's point leaves in the result's staging buffer, at entry (p, o): the layer at row
    1024 (t / 4) + p and output feature o. -/
theorem oAt1_apply (c : Dev nD) (t : Fin cfg1.N) (ht : t.val % 4 = 3) (p : Fin 1024) (o : Fin 128)
    (r : Fin 8192) (hr : r.val = 1024 * (t.val / 4) + p.val) :
    oAt1 V c t (ix2 p o) = G1 V c (ix2 r o) := by
  unfold oAt1
  refine (pay3_apply _ _ _ p o).trans ?_
  rw [blk_bias_apply V c t o]
  unfold G1 Cert.Spec.layer
  refine congrArg (· + (V c main_v3 : S1x128.Idx → EReal) (ix2 0 o)) (Finset.sum_congr rfl fun d _ => ?_)
  rw [blk_wt_apply V c t d o, acc_apply V c t.val t.isLt p d r hr, ht, sum_bsum]
  rfl

/-- What a last column block's point writes back is its block of the layer: rows 1024 (t / 4) to 1024 (t / 4) + 1023. -/
theorem flushed1_eq (c : Dev nD) (dat : Dat τ (Elt Ideal) Unit ℕ (UR sig nD τ) ℕ cfg1 c)
    (hafter : ∀ t, dat.after 6 t = oAt1 V c t) (t : Fin cfg1.N) (hf : (cfg1.win 6).flush t = true) :
    dat.flushed 6 t = ((cfg1.win 6).blk t).view.read (Elt Ideal) (G1 V c) := by
  have ht : t.val % 4 = 3 := (flush1_6 t).mp hf
  obtain ⟨-, -, -, -, -, -, -, -, -, -, -, -, e0, e1⟩ := idx1_facts t
  show (cfg1.win 6).cut (grid1.coords t) (dat.after 6 t) = _
  rw [hafter]
  funext j
  have hj0 : (j 0).val < 1024 := (j 0).isLt
  have hj1 : (j 1).val < 128 := (j 1).isLt
  have hN : t.val < 32 := t.isLt
  have hx : (cfg1.win 6).xinj (grid1.coords t) j = ix2 (⟨(j 0).val, hj0⟩ : Fin 1024) (⟨(j 1).val, hj1⟩ : Fin 128) :=
    funext fun a => by match a with | ⟨0, _⟩ => rfl | ⟨1, _⟩ => rfl
  show oAt1 V c t ((cfg1.win 6).xinj (grid1.coords t) j) = G1 V c (((cfg1.win 6).blk t).view.emb j)
  rw [hx, oAt1_apply V c t ht ⟨(j 0).val, hj0⟩ ⟨(j 1).val, hj1⟩ ⟨1024 * (t.val / 4) + (j 0).val, by omega⟩ rfl]
  congr 1
  funext a
  apply Fin.ext
  match a with
  | ⟨0, _⟩ => show 1024 * (t.val / 4) + (j 0).val = win1_6.index t (0 : Fin 2) * 1024 + 1 * (j 0).val; omega
  | ⟨1, _⟩ => show (j 1).val = win1_6.index t (1 : Fin 2) * 128 + 1 * (j 1).val; omega

/-- An index of the result array is in point t's block iff each coordinate is in the block's range on its axis. -/
theorem mem_blk1_6 (t : Fin cfg1.N) (i : S8192x128.Idx) :
    i ∈ ((cfg1.win 6).blk t).view.set ↔ ∀ a : Fin 2, win1_6.index t a * S1024x128.size a ≤ (i a).val ∧ (i a).val < win1_6.index t a * S1024x128.size a + S1024x128.size a := by
  show i ∈ ((View.whole main_v4).slice (win1_6.rect t)).set ↔ _
  rw [View.set_slice_whole, Rect.mem_set_unit]
  exact Iff.rfl

/-- Every row r of the result is covered by the last column block's point of its row block, 4 (r / 1024) + 3. -/
theorem cover1_6 (i : S8192x128.Idx) : ∃ t : Fin cfg1.N, (cfg1.win 6).flush t = true ∧ i ∈ ((cfg1.win 6).blk t).view.set := by
  have hi0 : (i 0).val < 8192 := (i 0).isLt
  have hi1 : (i 1).val < 128 := (i 1).isLt
  refine ⟨⟨4 * ((i 0).val / 1024) + 3, by show _ < 32; omega⟩, (flush1_6 _).mpr (by show (4 * ((i 0).val / 1024) + 3) % 4 = 3; omega), ?_⟩
  obtain ⟨-, -, -, -, -, -, -, -, -, -, -, -, e0, e1⟩ := idx1_facts ⟨4 * ((i 0).val / 1024) + 3, by show _ < 32; omega⟩
  rw [mem_blk1_6]
  intro a
  match a with
  | ⟨0, _⟩ =>
    show win1_6.index _ (0 : Fin 2) * 1024 ≤ (i 0).val ∧ (i 0).val < win1_6.index _ (0 : Fin 2) * 1024 + 1024
    rw [e0]
    show (4 * ((i 0).val / 1024) + 3) / 4 * 1024 ≤ (i 0).val ∧ (i 0).val < (4 * ((i 0).val / 1024) + 3) / 4 * 1024 + 1024
    omega
  | ⟨1, _⟩ =>
    show win1_6.index _ (1 : Fin 2) * 128 ≤ (i 1).val ∧ (i 1).val < win1_6.index _ (1 : Fin 2) * 128 + 128
    rw [e1]
    omega

end Aggregate

/-- After the aggregation region its result array holds the layer of the arrays the region found: the adjacency and the
    features, the row scale (a column array) and the column scale (a row array), the transposed weights and the bias row. -/
theorem arr1_final (c : Dev nD) (dat : Dat τ (Elt Ideal) Unit ℕ (UR sig nD τ) ℕ cfg1 c)
    (hA : ∀ w, dat.A w = V c (Pipeline.arrRef spec1 w)) (hafter : ∀ t, dat.after 6 t = oAt1 V c t) :
    dat.arrAt 6 cfg1.N = fun i : S8192x128.Idx =>
      Cert.Spec.layer (V c main_arg1) (V c main_arg0) (fun r => V c main_v0 (ix2 r 0)) (fun k => V c main_v1 (ix2 0 k))
        (fun d o => V c main_v2 (ix2 d o)) (fun o => V c main_v3 (ix2 0 o)) (i 0) (i 1) :=
  dat.arrAt_eq_of_cover 6 (Aggregate.G1 V c) (fun t hf => Aggregate.flushed1_eq V c dat hafter t hf) Aggregate.cover1_6

end Cert.KernelIdeal.Hand

end
-- ==== Proof.KIFinal.lean ====
/-
  The idealized kernel's result, as a function of the launch arguments. The aggregation region leaves in the result array
  the layer of the arrays it found; the adjacency and the features it found are the launch contents; the scale column it
  found is the row-sum region's result, whose row r is the reciprocal square root of degree plus the constant; the scale
  row is that column reshaped, the weights block is the transpose of the weights, the bias row the bias reshaped. So the
  result is the specification's G of the four arguments.
-/
import proofs.«167571_j15479062135162_1_alg».proof.Proof.KIVals
import proofs.«167571_j15479062135162_1_alg».proof.Proof.KIDat1
import proofs.«167571_j15479062135162_1_alg».proof.Proof.KIVal0
import proofs.«167571_j15479062135162_1_alg».proof.Proof.KIVal1
import proofs.«167571_j15479062135162_1_alg».proof.Proof.Spec
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ)

/-! ## The three host operations, read where the aggregation region reads them -/

/-- The scale row is the scale column reshaped. -/
theorem V3_main_v1 (c : Dev nD) :
    V3 m c main_v1 = shapeCast S1x8192 (V2 m c main_v0) shapeCasts_S8192x1_S1x8192 := by
  show StableHlo.after hostOps1 (W2 m c) (Proc.devRef .tc main_v1) = _
  after_results <;> rfl

/-- The weights block is the transpose of the weights argument. -/
theorem V3_main_v2 (c : Dev nD) :
    V3 m c main_v2 = transpose S128x128 [1, 0] (V2 m c main_arg2) transposes_S128x128_S128x128_1_0 := by
  show StableHlo.after hostOps1 (W2 m c) (Proc.devRef .tc main_v2) = _
  after_results <;> rfl

/-- The bias row is the bias argument reshaped. -/
theorem V3_main_v3 (c : Dev nD) :
    V3 m c main_v3 = shapeCast S1x128 (V2 m c main_arg3) shapeCasts_S128_S1x128 := by
  show StableHlo.after hostOps1 (W2 m c) (Proc.devRef .tc main_v3) = _
  after_results <;> rfl

theorem V2_main_v0 (c : Dev nD) : V2 m c main_v0 = (dat0 (V1 m) c).arrAt 1 cfg0.N := W2_arr m c 1
theorem V2_main_arg2 (c : Dev nD) : V2 m c main_arg2 = m ((c : Thread nD τ).loc main_arg2) := W2_of_ne m c main_arg2 (by decide)
theorem V2_main_arg3 (c : Dev nD) : V2 m c main_arg3 = m ((c : Thread nD τ).loc main_arg3) := W2_of_ne m c main_arg3 (by decide)

/-- The row-sum region's result array: row r holds the scale of row r. -/
theorem scale_col (c : Dev nD) :
    (dat0 (V1 m) c).arrAt 1 cfg0.N = fun y : S8192x1.Idx => Cert.Spec.dinv (m ((c : Thread nD τ).loc main_arg1)) (y 0) :=
  arr0_final (V1 m) c (dat0 (V1 m) c) (A_eq0 (V1 m) c) (after0_1 (V1 m) c)

/-- The scale column, read by the aggregation region at row r. -/
theorem drow_eq (c : Dev nD) (r : Fin 8192) :
    V3 m c main_v0 (ix2 r 0) = Cert.Spec.dinv (m ((c : Thread nD τ).loc main_arg1)) r := by
  rw [V3_main_v0, scale_col]

/-- The scale row at column k is the scale column at row k. -/
theorem dcol_eq (c : Dev nD) (k : Fin 8192) :
    V3 m c main_v1 (ix2 0 k) = Cert.Spec.dinv (m ((c : Thread nD τ).loc main_arg1)) k := by
  rw [V3_main_v1, V2_main_v0, scale_col]
  exact shapeCast_apply _ shapeCasts_S8192x1_S1x8192 (ix2 (0 : Fin 1) k) (ix2 k (0 : Fin 1)) (by
    rw [Shape.rowMajor_val_two, Shape.rowMajor_val_two]
    show k.val * 1 + 0 = 0 * 8192 + k.val
    omega)

/-- The weights block at (d, o) is the weights argument at (o, d). -/
theorem wt_eq (c : Dev nD) (d o : Fin 128) :
    V3 m c main_v2 (ix2 d o) = m ((c : Thread nD τ).loc main_arg2) (ix2 o d) := by
  rw [V3_main_v2, V2_main_arg2]
  exact transpose_apply [1, 0] _ transposes_S128x128_S128x128_1_0 (ix2 d o) (ix2 o d) (fun b => match b with
    | ⟨0, _⟩ => rfl
    | ⟨1, _⟩ => rfl)

/-- The bias row at column o is the bias argument at o. -/
theorem bias_eq (c : Dev nD) (o : Fin 128) :
    V3 m c main_v3 (ix2 0 o) = m ((c : Thread nD τ).loc main_arg3) (ix1 o) := by
  rw [V3_main_v3, V2_main_arg3]
  exact shapeCast_a_1a_apply _ shapeCasts_S128_S1x128 (0 : Fin 1) o

/-! ## The result -/

/-- The program's result array is the specification's function of the four arguments. -/
theorem result_eq (c : Dev nD) :
    W4 m c (Proc.devRef .tc main_v4)
      = Cert.Spec.G (m ((c : Thread nD τ).loc main_arg0)) (m ((c : Thread nD τ).loc main_arg1))
          (m ((c : Thread nD τ).loc main_arg2)) (m ((c : Thread nD τ).loc main_arg3)) := by
  have e1 : (fun r : Fin 8192 => V3 m c main_v0 (ix2 r 0)) = Cert.Spec.dinv (m ((c : Thread nD τ).loc main_arg1)) :=
    funext (drow_eq m c)
  have e2 : (fun k : Fin 8192 => V3 m c main_v1 (ix2 0 k)) = Cert.Spec.dinv (m ((c : Thread nD τ).loc main_arg1)) :=
    funext (dcol_eq m c)
  have e3 : (fun d o : Fin 128 => V3 m c main_v2 (ix2 d o)) = fun d o => m ((c : Thread nD τ).loc main_arg2) (ix2 o d) :=
    funext fun d => funext fun o => wt_eq m c d o
  have e4 : (fun o : Fin 128 => V3 m c main_v3 (ix2 0 o)) = fun o => m ((c : Thread nD τ).loc main_arg3) (ix1 o) :=
    funext (bias_eq m c)
  rw [W4_main_v4, arr1_final (V3 m) c (dat1 (V3 m) c) (A_eq1 (V3 m) c) (after1_6 (V3 m) c), e1, e2, e3, e4,
    V3_main_arg1, V3_main_arg0]
  rfl

end Cert.KernelIdeal.Hand

end
-- ==== Proof.RefG.lean ====
/-
  The reference program computes the layer of the specification with the scale taken as one over the square root.

  Read one element at a time, from the last stage inward: the result at (r, o) is a sum over the 128 features d of the
  aggregation at (r, d) times the transposed weight at (d, o), plus the bias at o; the aggregation at (r, d) is the sum
  over the 8192 neighbours k of the doubly scaled adjacency at (r, k) times the feature at (k, d); the doubly scaled
  adjacency at (r, k) is (scale r * adj r k) * scale k, the products taken in that order; and the scale at a node is one
  divided by the square root of (the sum of the node's adjacency row, started from the zero word, plus the constant).
  The zero word denotes 0 and the unit word denotes 1; the additive constant is kept as the word it is. No product is
  reassociated and no sum is regrouped: both sides are the same expression once the indices are spelt alike.
-/
import proofs.«167571_j15479062135162_1_alg».proof.Proof.Spec
import proofs.«167571_j15479062135162_1_alg».proof.Proof.Gen.ReferenceIdeal.Read

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The binary word of the unit is the extended real one. -/
theorem ofBits_one_f32 : Ideal.ofBits .f32 0x3F800000#32 = 1 := by
  simp [Ideal.ofBits, Ideal.ieee, -EReal.coe_mul]; norm_num

/-- The reference's scale vector, read at a node, is one over the square root of the degree plus the constant. -/
theorem scale_at (adj : (⟨S8192x8192, .f32⟩ : BufTy).Contents (Elt Ideal)) (r : Fin 8192) :
    val_main_v5 (F := Ideal) adj (ix1 r) = Cert.Spec.dinvRef adj r := by
  have e0 : ∀ k : Fin 8192, idx_main_v0 (ix1 r) k = ix2 r k := fun k =>
    funext fun a => Fin.ext (by match a with | ⟨0, _⟩ => rfl | ⟨1, _⟩ => rfl)
  rw [val_main_v5_apply, val_main_v4_apply, val_main_cst_1_apply, val_main_v3_apply, val_main_v2_apply,
    val_main_v0_apply, val_main_v1_apply, val_main_cst_0_apply, val_main_cst_apply]
  simp only [Ideal.hostDivf_def, Ideal.hostUnary_sqrt_def, Ideal.addf_def, Ideal.ofBits_def, Ideal.ofBits_zero_f32,
    zero_add, ofBits_one_f32, e0]
  rfl

/-- The doubly scaled adjacency, read at an entry: the row's scale times the entry, times the column's scale. -/
theorem scaled_at (adj : (⟨S8192x8192, .f32⟩ : BufTy).Contents (Elt Ideal)) (r k : Fin 8192) :
    val_main_v11 (F := Ideal) adj (ix2 r k)
      = (Cert.Spec.dinvRef adj r * adj (ix2 r k)) * Cert.Spec.dinvRef adj k := by
  have e6 : idx_main_v6 (idx_main_v7 (ix2 r k)) = ix1 r :=
    funext fun a => Fin.ext (by match a with | ⟨0, _⟩ => rfl)
  have e9 : idx_main_v9 (idx_main_v10 (ix2 r k)) = ix1 k :=
    funext fun a => Fin.ext (by match a with | ⟨0, _⟩ => rfl)
  rw [val_main_v11_apply, val_main_v8_apply, val_main_v7_apply, val_main_v6_apply, val_main_v10_apply,
    val_main_v9_apply, e6, e9, scale_at, scale_at]
  rfl

/-- The aggregation, read at a node and a feature: the sum over the neighbours of the scaled entry times the feature. -/
theorem aggregated_at (x : (⟨S8192x128, .f32⟩ : BufTy).Contents (Elt Ideal))
    (adj : (⟨S8192x8192, .f32⟩ : BufTy).Contents (Elt Ideal)) (r : Fin 8192) (d : Fin 128) :
    val_main_v12 (F := Ideal) x adj (ix2 r d)
      = ∑ k : Fin 8192, ((Cert.Spec.dinvRef adj r * adj (ix2 r k)) * Cert.Spec.dinvRef adj k) * x (ix2 k d) := by
  have el : ∀ k : Fin 8192, lidx_main_v12 (ix2 r d) k = ix2 r k := fun k =>
    funext fun a => Fin.ext (by match a with | ⟨0, _⟩ => rfl | ⟨1, _⟩ => rfl)
  have er : ∀ k : Fin 8192, ridx_main_v12 (ix2 r d) k = ix2 k d := fun k =>
    funext fun a => Fin.ext (by match a with | ⟨0, _⟩ => rfl | ⟨1, _⟩ => rfl)
  rw [val_main_v12_apply]
  refine Finset.sum_congr rfl fun k _ => ?_
  rw [el, er, scaled_at]

/-- The reference's result, as the last stage of its run, is the layer with the reference's form of the scale. -/
theorem ref_eq_Gref (x : (⟨S8192x128, .f32⟩ : BufTy).Contents (Elt Ideal)) (adj : (⟨S8192x8192, .f32⟩ : BufTy).Contents (Elt Ideal))
    (W : (⟨S128x128, .f32⟩ : BufTy).Contents (Elt Ideal)) (b : (⟨S128, .f32⟩ : BufTy).Contents (Elt Ideal)) :
    val_main_v17 (F := Ideal) x adj W b = Cert.Spec.Gref x adj W b := by
  funext i
  obtain ⟨r, o, rfl⟩ : ∃ (r : Fin 8192) (o : Fin 128), i = ix2 r o := ⟨i 0, i 1, eq_ix2 i⟩
  have el : ∀ d : Fin 128, lidx_main_v14 (ix2 r o) d = ix2 r d := fun d =>
    funext fun a => Fin.ext (by match a with | ⟨0, _⟩ => rfl | ⟨1, _⟩ => rfl)
  have ew : ∀ d : Fin 128, idx_main_v13 (ridx_main_v14 (ix2 r o) d) = ix2 o d := fun d =>
    funext fun a => Fin.ext (by match a with | ⟨0, _⟩ => rfl | ⟨1, _⟩ => rfl)
  have eb : idx_main_v15 (idx_main_v16 (ix2 r o)) = ix1 o :=
    funext fun a => Fin.ext (by match a with | ⟨0, _⟩ => rfl)
  rw [val_main_v17_apply, val_main_v14_apply, val_main_v16_apply, val_main_v15_apply, eb, Ideal.addf_def]
  show _ = Cert.Spec.layer adj x (Cert.Spec.dinvRef adj) (Cert.Spec.dinvRef adj) (fun d o => W (ix2 o d))
    (fun o => b (ix1 o)) r o
  unfold Cert.Spec.layer
  refine congrArg (· + b (ix1 o)) (Finset.sum_congr rfl fun d _ => ?_)
  rw [el, val_main_v13_apply, ew, aggregated_at]

end Cert.ReferenceIdeal.RefValue

end
-- ==== Proof.PreDecode.lean ====
import proofs.«167571_j15479062135162_1_alg».proof.Proof.Spec
import proofs.«167571_j15479062135162_1_alg».proof.Pre_finite_inputs
import Idealize.ShloMosaic.Lib.ReduceAll
import Idealize.ShloMosaic.Lib.StableHlo.Predicate
import Idealize.ShloMosaic.Lib.ValueIdx
import Idealize.ShloMosaic.Lib.IdealHost
import Idealize.ShloMosaic.PureOps.Ideal.Laws

noncomputable section

open scoped BigOperators

namespace Cert.PreDecode

open Idealize.ShloMosaic Idealize.ShloMosaic.ValueIdx
open Cert.Pre_finite_inputs Cert.Pre_finite_inputs.Facts

/-- On the extended reals the comparison "greater or equal" yields the bit 1 exactly when the second operand is at
    most the first. -/
theorem cmp_oge_eq_one (u v : EReal) : Ideal.cmp .oge u v = 1#1 ↔ v ≤ u := by
  show BitVec.ofBool (decide (v ≤ u)) = 1#1 ↔ v ≤ u
  rw [StableHlo.Predicate.ofBool_eq_one_iff, decide_eq_true_iff]

/-- The sum of the matrix along its second axis, started from the zero constant, is at row `r` that row's degree:
    the initial value is the extended real 0, and the reduced axis runs over the row's 8192 entries. -/
theorem rowsum_apply [Cert.Pre_finite_inputs.Facts] (adj : FVec Ideal Cert.Pre_finite_inputs.S8192x8192 .f32)
    (r : Fin 8192) :
    Host.reduceAdd (F := Ideal) adj (constant (F := Ideal) Cert.Pre_finite_inputs.S_ .f32 0x00000000#32)
      reducesTo_S8192x8192_S8192_d1 h_S_ (ix1 r) = Cert.Spec.deg adj r := by
  refine (hostReduceAdd_apply adj _ reducesTo_S8192x8192_S8192_d1 h_S_ (ix1 r)).trans ?_
  refine (Ideal.hostReduceAdd_single reducesTo_S8192x8192_S8192_d1 (by decide) adj _ (ix1 r)).trans ?_
  rw [constant_apply, Ideal.ofBits_zero_f32, zero_add]
  unfold Cert.Spec.deg
  refine Finset.sum_congr rfl fun k _ => ?_
  -- the index inserted at the reduced axis is (r, k), coordinate by coordinate
  exact congrArg adj (funext fun a => Fin.ext (by match a with | ⟨0, _⟩ => rfl | ⟨1, _⟩ => rfl))

/-- The zero constant spread along the rows reads the extended real 0 at every row. -/
theorem zeros_apply [Cert.Pre_finite_inputs.Facts] (r : Fin 8192) :
    broadcastInDim Cert.Pre_finite_inputs.S8192 ![] bcast_S_S8192
      (constant (F := Ideal) Cert.Pre_finite_inputs.S_ .f32 0x00000000#32) (ix1 r) = 0 :=
  (broadcastInDim_scalar_apply bcast_S_S8192 _ (ix1 r)).trans ((constant_apply _ _).trans Ideal.ofBits_zero_f32)

/-- The additive constant spread along the rows reads, at every row, the value its binary pattern denotes. -/
theorem eps_apply [Cert.Pre_finite_inputs.Facts] (r : Fin 8192) :
    broadcastInDim Cert.Pre_finite_inputs.S8192 ![] bcast_S_S8192
      (constant (F := Ideal) Cert.Pre_finite_inputs.S_ .f32 0x358637BD#32) (ix1 r) = Cert.Spec.eps :=
  (broadcastInDim_scalar_apply bcast_S_S8192 _ (ix1 r)).trans (constant_apply _ _)

/-- The precondition's last conjunct, read at a row: that row's degree plus the constant is at least zero. -/
theorem deg_nonneg_of_pre [Cert.Pre_finite_inputs.Facts]
    (x : FVec Ideal Cert.Pre_finite_inputs.S8192x128 .f32) (adj : FVec Ideal Cert.Pre_finite_inputs.S8192x8192 .f32)
    (W : FVec Ideal Cert.Pre_finite_inputs.S128x128 .f32) (b : FVec Ideal Cert.Pre_finite_inputs.S128 .f32)
    (h : Cert.Pre_finite_inputs.fn (F := Ideal) x adj W b = fun _ => 1#1) :
    ∀ r : Fin 8192, 0 ≤ Cert.Spec.deg adj r + Cert.Spec.eps := by
  intro r
  -- the scalar shape has one index
  haveI : Subsingleton Cert.Pre_finite_inputs.S_.Idx := ⟨fun a b => funext fun d => d.elim0⟩
  -- the predicate at its one index is a conjunction of five bits; all are 1, so the last is
  have h0 := congrFun h ix0
  dsimp only [Cert.Pre_finite_inputs.fn, Cert.Pre_finite_inputs.fn_part1] at h0
  have h1 := (IntOp.andi_eq_one.1 h0).2
  -- the last bit is the conjunction over all rows of a comparison; so the comparison holds at row r
  have h2 := Host.reduce_andi_all _ _ _ _ _ h1 (ix1 r)
  -- the comparison at row r says: the right operand there is at most the left operand there
  have h3 := (cmp_oge_eq_one _ _).1 ((cmpf_apply _ _ _ _).symm.trans h2)
  -- the right operand is 0; the left is the row sum plus the constant
  rw [zeros_apply, addf_apply, rowsum_apply, eps_apply] at h3
  exact h3

end Cert.PreDecode

end
-- ==== Proof.lean ====
/-
  The certificate of the graph-convolution kernel against its reference, over the extended reals.

  The kernel is two pipelined regions with three host operations between them. The first sums each adjacency row over
  four column blocks in a carried accumulator and stores (deg + eps)^(-1/2); the second accumulates, over the same four
  column blocks, the product of the scaled adjacency block with the feature block, and at the last block multiplies by
  the transposed weights and adds the bias. Both regions' frames are proved once for any float instance (the body run in
  its three control cases, the accumulator's contents named point by point) and read at the word-level instance for the
  kernel as printed and at the ideal instance for its idealization; the ideal pass rewrote nothing, so the idealization
  is the kernel's own text.

  At the ideal instance the kernel's result array is the layer G of the four arguments (a regrouping of each length-8192
  sum into its four blocks of 2048, nothing else). The reference computes the same layer with 1/sqrt(deg + eps) where the
  kernel has the one-step reciprocal square root; the two agree exactly where deg + eps is at least zero, which the
  precondition states of every row (below zero the reference's square root is undefined).
-/
import proofs.«167571_j15479062135162_1_alg».proof.Defs
import proofs.«167571_j15479062135162_1_alg».proof.Proof.Gen.Kernel
import proofs.«167571_j15479062135162_1_alg».proof.Proof.Gen.KernelIdeal
import proofs.«167571_j15479062135162_1_alg».proof.Proof.Gen.ReferenceIdeal
import proofs.«167571_j15479062135162_1_alg».proof.Proof.Gen.Pre_finite_inputs
import proofs.«167571_j15479062135162_1_alg».proof.Proof.Gen.ReferenceIdeal.Run
import proofs.«167571_j15479062135162_1_alg».proof.Proof.Gen.ReferenceIdeal.Read
import proofs.«167571_j15479062135162_1_alg».proof.Proof.KGlue
import proofs.«167571_j15479062135162_1_alg».proof.Proof.KIGlue
import proofs.«167571_j15479062135162_1_alg».proof.Proof.KIFinal
import proofs.«167571_j15479062135162_1_alg».proof.Proof.RefG
import proofs.«167571_j15479062135162_1_alg».proof.Proof.PreDecode
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference, a straight line of host operations, runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the layer G of the arguments in their result arrays. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨?_, ?_, ?_, ?_, ?_⟩) (Cert.KernelIdeal.Hand.run_all m ρ)
    · exact (h c _ (Cert.KernelIdeal.Hand.mem_uc Cert.KernelIdeal.main_v4 (by decide))).trans (Cert.KernelIdeal.Hand.result_eq m c)
    · exact (h c _ (Cert.KernelIdeal.Hand.mem_uc Cert.KernelIdeal.main_arg0 (by decide))).trans (Cert.KernelIdeal.Hand.W4_main_arg0 m c)
    · exact (h c _ (Cert.KernelIdeal.Hand.mem_uc Cert.KernelIdeal.main_arg1 (by decide))).trans (Cert.KernelIdeal.Hand.W4_main_arg1 m c)
    · exact (h c _ (Cert.KernelIdeal.Hand.mem_uc Cert.KernelIdeal.main_arg2 (by decide))).trans (Cert.KernelIdeal.Hand.W4_main_arg2 m c)
    · exact (h c _ (Cert.KernelIdeal.Hand.mem_uc Cert.KernelIdeal.main_arg3 (by decide))).trans (Cert.KernelIdeal.Hand.W4_main_arg3 m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, Cert.ReferenceIdeal.RefValue.ref_eq_Gref,
      (hagree c).1, (hagree c).2.1, (hagree c).2.2.1, (hagree c).2.2.2]
    exact (Cert.Spec.G_eq_Gref _ _ _ _ (Cert.PreDecode.deg_nonneg_of_pre _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
